-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩
abbrev S16384 : Shape := ⟨1, ![16384]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v14 : FVec F S16384 .f32) (main_v15 : FVec F S16384 .f32) : IVec S_ 1 :=
  let main_v16 : FVec F S16384 .f32 := addf main_v14 main_v15
  let main_cst_6 : FVec F S_ .f32 := constant S_ .f32 0x00000000#32
  let main_v17 : FVec F S16384 .f32 := broadcastInDim S16384 ![] bcast_S_S16384 main_cst_6
  let main_v18 : IVec S16384 1 := cmpf .ogt main_v16 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v13 main_v19
  main_v20

def fn {F : FTy → Type} [FloatOps F] (main_arg0 : FVec F S16384x256 .f32) (main_arg1 : FVec F S16384x16384 .f32) (main_arg2 : FVec F S256x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_cst_4 : FVec F S_ .f32 := constant S_ .f32 0x00000000#32
  let main_v14 : FVec F S16384 .f32 := (fun x v => Host.reduceAdd x v reducesTo_S16384x16384_S16384_d1 h_S_) main_arg1 main_cst_4
  let main_cst_5 : FVec F S_ .f32 := constant S_ .f32 0x3F800000#32
  let main_v15 : FVec F S16384 .f32 := broadcastInDim S16384 ![] bcast_S_S16384 main_cst_5
  fn_part1 (F := F) main_v13 main_v14 main_v15
-- ==== Kernel.lean ====
abbrev S16384x256 : Shape := ⟨2, ![16384, 256]⟩
abbrev S16384x16384 : Shape := ⟨2, ![16384, 16384]⟩
abbrev S256x256 : Shape := ⟨2, ![256, 256]⟩
abbrev S16384x1 : Shape := ⟨2, ![16384, 1]⟩
abbrev S128x16384 : Shape := ⟨2, ![128, 16384]⟩
abbrev S128x256 : Shape := ⟨2, ![128, 256]⟩
abbrev S128x1 : Shape := ⟨2, ![128, 1]⟩
abbrev S128 : Shape := ⟨1, ![128]⟩
abbrev S1024x1024 : Shape := ⟨2, ![1024, 1024]⟩
abbrev S1024x256 : Shape := ⟨2, ![1024, 256]⟩
abbrev S1024x1 : Shape := ⟨2, ![1024, 1]⟩
abbrev S1024 : Shape := ⟨1, ![1024]⟩

abbrev nBuf : Space → Nat
  | .hbm => 6
  | .vmem => 20
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x1, .f32⟩
  | .hbm, ⟨4, _⟩ => ⟨S16384x256, .f32⟩
  | .hbm, ⟨5, _⟩ => ⟨S16384x256, .f32⟩
  | .local _ .vmem, ⟨0, _⟩ => ⟨S128x16384, .f32⟩
  | .local _ .vmem, ⟨1, _⟩ => ⟨S128x16384, .f32⟩
  | .local _ .vmem, ⟨2, _⟩ => ⟨S128x256, .f32⟩
  | .local _ .vmem, ⟨3, _⟩ => ⟨S128x256, .f32⟩
  | .local _ .vmem, ⟨4, _⟩ => ⟨S128x1, .f32⟩
  | .local _ .vmem, ⟨5, _⟩ => ⟨S128x1, .f32⟩
  | .local _ .vmem, ⟨6, _⟩ => ⟨S128x256, .f32⟩
  | .local _ .vmem, ⟨7, _⟩ => ⟨S128x256, .f32⟩
  | .local _ .vmem, ⟨8, _⟩ => ⟨S1024x1024, .f32⟩
  | .local _ .vmem, ⟨9, _⟩ => ⟨S1024x1024, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S256x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S128x16384_S128x16384_0_0 : ∀ a, (![0, 0] : Fin 2 → Nat) a + S128x16384.size a ≤ S128x16384.size a
  h_S128x16384 : 0 < S128x16384.numel
  reduces_S128x16384_S128 : S128x16384.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  inb_S128x256_S128x256_0_0 : ∀ a, (![0, 0] : Fin 2 → Nat) a + S128x256.size a ≤ S128x256.size a
  h_S128x256 : 0 < S128x256.numel
  broadcasts_S128x1_S128x256 : S128x1.Broadcasts S128x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  reduces_S1024x256_S1024 : S1024x256.Reduces [1] S1024
  shapeCasts_S1024_S1024x1 : S1024.ShapeCasts S1024x1
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S16384x16384.size a
  hwx0_0 : ∀ i : grid0.Coords, EltTy.bits .f32 = 32 ∨ (Rect.block (s := S16384x16384) S128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S16384x256.size a
  hwx0_1 : ∀ i : grid0.Coords, EltTy.bits .f32 = 32 ∨ (Rect.block (s := S16384x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S16384x1.size a
  hwx0_2 : ∀ i : grid0.Coords, EltTy.bits .f32 = 32 ∨ (Rect.block (s := S16384x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S16384x256.size a
  hwx0_3 : ∀ i : grid0.Coords, EltTy.bits .f32 = 32 ∨ (Rect.block (s := S16384x256) S128x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x16384.size a
  hwx1_0 : ∀ i : grid1.Coords, EltTy.bits .f32 = 32 ∨ (Rect.block (s := S16384x16384) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S16384x256.size a
  hwx1_1 : ∀ i : grid1.Coords, EltTy.bits .f32 = 32 ∨ (Rect.block (s := S16384x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .f32 = 32 ∨ (Rect.block (s := S16384x256) S1024x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S16384x256.size a
  hwx1_5 : ∀ i : grid1.Coords, EltTy.bits .f32 = 32 ∨ (Rect.block (s := S16384x256) S1024x256.size (cc1_transform_5 i) (hinb1_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg1) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_0) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩
abbrev S16384 : Shape := ⟨1, ![16384]⟩
abbrev S16384x1 : Shape := ⟨2, ![16384, 1]⟩
abbrev S1x16384 : Shape := ⟨2, ![1, 16384]⟩

abbrev nBuf : Space → Nat
  | .hbm => 38
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x16384, .i32⟩
  | .hbm, ⟨4, _⟩ => ⟨S16384x16384, .i32⟩
  | .hbm, ⟨5, _⟩ => ⟨S_, .i32⟩
  | .hbm, ⟨6, _⟩ => ⟨S16384x16384, .i32⟩
  | .hbm, ⟨7, _⟩ => ⟨S16384x16384, .i32⟩
  | .hbm, ⟨8, _⟩ => ⟨S16384x16384, .i1⟩
  | .hbm, ⟨9, _⟩ => ⟨S16384x16384, .f32⟩
  | .hbm, ⟨10, _⟩ => ⟨S16384x16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S1x16384, .f32⟩
  | .hbm, ⟨21, _⟩ => ⟨S16384x16384, .f32⟩
  | .hbm, ⟨22, _⟩ => ⟨S16384x16384, .f32⟩
  | .hbm, ⟨23, _⟩ => ⟨S16384x256, .f32⟩
  | .hbm, ⟨24, _⟩ => ⟨S16384x256, .f32⟩
  | .hbm, ⟨25, _⟩ => ⟨S_, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x256, .f32⟩
  | .hbm, ⟨37, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev main_call1_v0 : Ref sig .tc := ⟨.hbm, 28, rfl⟩
abbrev main_call1_cst : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S16384x16384 : S_.BroadcastsInDim S16384x16384 (![] : Fin 0 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S_S16384x256 : S_.BroadcastsInDim S16384x256 (![] : Fin 0 → Fin S16384x256.rank)
  reducesTo_S16384x256_S16384_d1 : S16384x256.ReducesTo [1] S16384
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  dot_S16384x16384_S16384x256_S16384x256_1_0_0_1_n_n_wf : DotDims.WF S16384x16384 S16384x256 S16384x256 [1] [0] [0] [1] [] []
  dot_S16384x256_S256x256_S16384x256_1_0_0_1_n_n_wf : DotDims.WF S16384x256 S256x256 S16384x256 [1] [0] [0] [1] [] []

variable [Facts₀]

def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.BitsDegreeRegion.lean ====
/-
  The first pallas_call of the kernel program, region by itself: for each block of 128 rows it adds up each row of the
  adjacency block, adds one, takes the reciprocal square root (the degree factor of the row) and writes that column
  out, and writes out the feature rows each multiplied by its row's factor. Stated at any contents `V` of the core's
  buffers at the region's entry and at any float instance: what each staging buffer holds after the body at a grid
  point (the proof data), and that the body, run on the pipeline's staging buffers at that point, leaves exactly that.
-/
import proofs.«121199_j53403623358621_1_alg».proof.Proof.Gen.Kernel.Launch
import proofs.«121199_j53403623358621_1_alg».proof.Proof.Gen.Kernel.Skeleton
import proofs.«121199_j53403623358621_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block of 128 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds its block of 128 rows at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S128x16384 := Rect.unit (s := S128x16384) ![0, 0] S128x16384.size inb_S128x16384_S128x16384_0_0
abbrev rF0 : Rect S128x256 := Rect.unit (s := S128x256) ![0, 0] S128x256.size inb_S128x256_S128x256_0_0
abbrev rD0 : Rect S128x1 := Rect.unit (s := S128x1) ![0, 0] S128x1.size inb_S128x1_S128x1_0_0

/-- The degree-factor column the body leaves: one store of the whole block. -/
def degOut (a : Vec F S128x16384 .f32) : Vec F S128x1 .f32 :=
  View.canon [⟨rD0, k0_pay1 (View.ld a rA0)⟩]

/-- The scaled feature rows the body leaves: one store of the whole block. -/
def scaledOut (a : Vec F S128x16384 .f32) (x : Vec F S128x256 .f32) : Vec F S128x256 .f32 :=
  View.canon [⟨rF0, k0_pay2 (View.ld a rA0) (View.ld x rF0)⟩]

theorem coverDeg (p0 : Vec F S128x1 .f32) (y : S128x1.Idx) :
    ∃ pc ∈ ([⟨rD0, p0⟩] : List (View.Piece (Elt F) S128x1 .f32)), y ∈ pc.1.set :=
  View.cover_of_tiled [⟨rD0, p0⟩] S128x1.size (by rfl) y

theorem coverScaled (p0 : Vec F S128x256 .f32) (y : S128x256.Idx) :
    ∃ pc ∈ ([⟨rF0, p0⟩] : List (View.Piece (Elt F) S128x256 .f32)), y ∈ pc.1.set :=
  View.cover_of_tiled [⟨rF0, p0⟩] S128x256.size (by rfl) y

set_option maxHeartbeats 1000000 in
/-- The body on whole staging buffers: the two inputs at contents `a`, `x` and the two outputs at anything; it ends with the
    inputs as they were and the outputs at the degree-factor column and the scaled rows of `a`, `x`. -/
theorem sound_kernel0 (c : Dev nD) (E : Set ℕ) (i : grid0.Coords)
    (arg1 : Memref sig .tc .vmem S128x16384 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x256 .f32) (harg4 : arg4.IsWhole)
    (a : Vec F S128x16384 .f32) (x : Vec F S128x256 .f32) (K : PUnit → sProp 𝕄) :
    iprop(owns (c : Thread nD τ) arg1 fullShare a ∗ owns (c : Thread nD τ) arg2 fullShare x
        ∗ (∃ d, owns (c : Thread nD τ) arg3 fullShare d) ∗ (∃ d, owns (c : Thread nD τ) arg4 fullShare d)
        ∗ (iprop(owns (c : Thread nD τ) arg1 fullShare a ∗ owns (c : Thread nD τ) arg2 fullShare x
            ∗ owns (c : Thread nD τ) arg3 fullShare (degOut a) ∗ owns (c : Thread nD τ) arg4 fullShare (scaledOut a x)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverDeg _)
  iexists _; isplitr
  swap; · iexact H3
  ipureintro
  exact View.read_writes_eq_canon _ _ _ (coverScaled _)

/-- The proof data of the first pallas_call on core `c`: the arrays as the region finds them; after the body at point
    `t` the inputs' buffers at their blocks, the outputs' at the degree-factor column and the scaled rows of those blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => degOut (iblk0 V c 0 t)
    | ⟨3, _⟩ => scaledOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = degOut (iblk0 V c 0 t) := by dsimp only [dat0]
theorem after0_3 (c : Dev nD) (t : Fin cfg0.N) : (dat0 V c).after 3 t = scaledOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAggRegion.lean ====
/-
  The second pallas_call of the kernel program, region by itself, on its grid of 16 × 16 points (row block i, column
  block k; point t = 16·i + k). At k = 0 the body copies the row block's scaled features into an accumulator it keeps in
  scratch memory; at every k it adds the product of the adjacency block (i, k) with the scaled features of row block k;
  at k = 15 it multiplies the accumulated rows by the rows' degree factors, applies the weights, clamps at zero,
  divides each row by its floored Euclidean length and stores the result block, which is written back only then.
  Stated at any contents `V` of the core's buffers at the region's entry and at any float instance: what the accumulator
  holds after each point (`accAt`, by recursion on the point), what the output's staging buffer holds after a point
  where it is stored (`outAt`), the region's invariant carrying the accumulator from point to point, and that the body,
  run on the pipeline's staging buffers at a point, leaves exactly that.
-/
import proofs.«121199_j53403623358621_1_alg».proof.Proof.Gen.Kernel.Launch
import proofs.«121199_j53403623358621_1_alg».proof.Proof.Gen.Kernel.Skeleton
import proofs.«121199_j53403623358621_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, in closed form over the grid -/

/-- `k = 0`: the accumulator is reset. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 16 = 0 :=
  (by decide +kernel : ∀ t : Fin grid1.N, condFirst (grid1.coords t) ↔ t.val % 16 = 0)

/-- `k = 15`: the result block is computed and stored. -/
abbrev condLast (i : grid1.Coords) : Prop := k1_cond2 i = 1#1
theorem hcondLast : ∀ t : Fin cfg1.N, condLast (grid1.coords t) ↔ t.val % 16 = 15 :=
  (by decide +kernel : ∀ t : Fin grid1.N, condLast (grid1.coords t) ↔ t.val % 16 = 15)

/-! ## What the accumulator and the output buffer hold -/

/-- The accumulator after point `n`: at the first column block the row block's scaled features plus the first product,
    afterwards what the point before left plus this point's product. -/
def accAt (c : Dev nD) : (n : ℕ) → n < cfg1.N → Vec F S1024x256 .f32
  | 0, hn => k1_pay2 (iblk1 V c 0 ⟨0, hn⟩) (iblk1 V c 1 ⟨0, hn⟩) (k1_pay1 (iblk1 V c 2 ⟨0, hn⟩))
  | n + 1, hn =>
    if (n + 1) % 16 = 0 then k1_pay2 (iblk1 V c 0 ⟨n + 1, hn⟩) (iblk1 V c 1 ⟨n + 1, hn⟩) (k1_pay1 (iblk1 V c 2 ⟨n + 1, hn⟩))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 16 = 0) :
    accAt V c t.val t.isLt = k1_pay2 (iblk1 V c 0 t) (iblk1 V c 1 t) (k1_pay1 (iblk1 V c 2 t)) := by
  obtain ⟨n, hn⟩ := t
  cases n with
  | zero => rfl
  | succ n => exact if_pos h

theorem accAt_next (c : Dev nD) (t : Fin cfg1.N) (h : ¬ t.val % 16 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The result block the body stores at the last column block, from the accumulator as that point leaves it. (At the
    other points the output window is idle and nothing reads this.) -/
def outAt (c : Dev nD) (t : Fin cfg1.N) : Vec F S1024x256 .f32 :=
  k1_pay3 (iblk1 V c 3 t) (accAt V c t.val t.isLt) (iblk1 V c 4 t)

/-! ## The region's invariant -/

/-- The accumulator: the pallas_call's scratch operand, a whole scoped buffer. -/
abbrev scM1 : Memref sig .tc .vmem S1024x256 .f32 := Memref.whole cc1_scratch0

/-- The core's scoped buffers that the second pallas_call does not stage — the first call's eight staging buffers, each
    at anything — beside the accumulator in the state `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant of the launch (every scoped buffer the call does not stage at anything, the generator register
    at some state) with the accumulator singled out. -/
theorem PhiA1_eq (c : Dev nD) :
    (Pipeline.ΦA spec1 c : sProp 𝕄)
      = iprop(scopedWith c (iprop(∃ d, owns (c : Thread nD τ) scM1 fullShare d)) ∗ (∃ r, prngReg c r)) := by
  unfold Pipeline.ΦA scopedWith; rw [scopedRest1_eq]; simp only [scM1, owns_whole]; try rfl

/-- The invariant before position `n`: before the first point the launch's; afterwards the accumulator at what the point
    before left in it. -/
def PhiS1 (c : Dev nD) : (n : ℕ) → n ≤ cfg1.N → sProp 𝕄
  | 0, _ => Pipeline.ΦA spec1 c
  | n + 1, hn => iprop(scopedWith c (owns (c : Thread nD τ) scM1 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith c (owns (c : Thread nD τ) scM1 fullShare (accAt V c n hn)) ∗ (∃ r, prngReg c r)) := rfl

theorem PhiS1_pos (c : Dev nD) (n : ℕ) (h : n ≤ cfg1.N) (hz : n ≠ 0) :
    PhiS1 V c n h = iprop(scopedWith c (owns (c : Thread nD τ) scM1 fullShare (accAt V c (n - 1) (by omega))) ∗ (∃ r, prngReg c r)) := by
  cases n with
  | zero => exact absurd rfl hz
  | succ n => rfl

/-! ## The proof data -/

/-- The proof data of the second pallas_call on core `c`: the arrays as the region finds them; after the body at point
    `t` each input's buffer at its block and the output's at `outAt`; the invariant carrying the accumulator; the scaled
    features' array, which two windows read, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.Kernel.Hand

end
-- ==== Proof.BitsAggBody.lean ====
/-
  The second pallas_call's body obligation: at every grid point the body, handed the input blocks, the output's staging
  buffer and the accumulator as the point before left it, leaves the accumulator and (at the last column block) the
  output's buffer at what the proof data say. The body is run once per control case on whole staging buffers (k = 0:
  the accumulator is reset and updated; 0 < k < 15: updated; k = 15: updated, and the result block computed from it
  and stored); each run's final contents are read back as the payload terms the proof data are stated over.
-/
import proofs.«121199_j53403623358621_1_alg».proof.Proof.BitsAggRegion
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets, as the body's loads and stores spell them. -/
theorem zeroOff2 : (![0, 0] : Fin 2 → Nat) = fun _ => 0 := funext fun a => by fin_cases a <;> rfl

/-- After a list of stores whose last goes through the whole-shape rectangle at zero offsets, the buffer reads as that
    store's payload, whatever the earlier stores and the contents before them were. -/
theorem read_writes_cons_whole {σ : RefSig} {κ : Kind} {sp : Space} {S : Shape} {e : EltTy} {Val : EltTy → Type} [∀ e, Nonempty (Val e)]
    (v : View σ κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨⟨Rect.unit off S.size inb, w⟩, List.mem_cons.mpr (Or.inl rfl), View.mem_set_unit_zero h inb y⟩)).trans
    (View.canon_cons_unit_zero h inb w L)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the result block is not stored the output window is idle, -/
theorem idleAt1_5 : ∀ t : Fin cfg1.N, ¬condLast (grid1.coords t) → cfg1.idle 5 (grid1.coords t) = true := by decide +kernel
/-- and not written back; -/
theorem noFlush1_5 : ∀ t : Fin cfg1.N, ¬condLast (grid1.coords t) → (cfg1.win 5).flush t = false := by decide +kernel
/-- where it is stored the window is live. -/
theorem liveAt1_5 : ∀ t : Fin cfg1.N, condLast (grid1.coords t) → cfg1.idle 5 (grid1.coords t) = false := by decide +kernel

/-! ## The input windows' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body on whole staging buffers, one run per control case -/

set_option maxHeartbeats 1000000 in
/-- The body at a point with k = 0, on whole staging buffers: the first branch is taken, the second is not. The
    accumulator, handed in at anything, is first set to the row block's scaled features `x2` and then, read back, left
    at that plus the product of the adjacency block with the feature block. -/
theorem sound_kernel1_A (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : condFirst i) (hc1 : ¬condLast i)
    (x0 : Vec F S1024x1024 .f32) (x1 x2 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg8 fullShare (k1_pay2 x0 x1 (k1_pay1 x2))) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

set_option maxHeartbeats 1000000 in
/-- The body at a point with 0 < k < 15, on whole staging buffers: neither branch is taken; the accumulator, handed in
    at `xs`, is left at `xs` plus the product of the adjacency block with the feature block. -/
theorem sound_kernel1_B (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : ¬condLast i)
    (x0 : Vec F S1024x1024 .f32) (x1 xs : Vec F S1024x256 .f32) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k1_pay2 x0 x1 xs)) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

set_option maxHeartbeats 1000000 in
/-- The body at a point with k = 15, on whole staging buffers: the first branch is not taken, the second is. The
    accumulator, handed in at `xs`, is left at `xs` plus the product; the output's buffer, handed in at anything, is left
    at the result block computed from the degree factors `x3`, the accumulator as just stored (read back) and the
    weights `x4`. -/
theorem sound_kernel1_C (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : condLast i)
    (x0 : Vec F S1024x1024 .f32) (x1 xs : Vec F S1024x256 .f32) (x3 : Vec F S1024x1 .f32) (x4 : Vec F S256x256 .f32) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg6 fullShare x4 ∗ owns (c : Thread nD τ) arg7 fullShare (k1_pay3 x3 (k1_pay2 x0 x1 xs) x4)
            ∗ owns (c : Thread nD τ) arg8 fullShare (k1_pay2 x0 x1 xs)) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg5.eq_unread hf3
  obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_writes_cons_whole (S := S1024x256) _ _ zeroOff2]
    simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's column block says which branches run.
    At k = 0 the invariant hands the accumulator over at whatever it holds and takes it back at the row block's scaled
    features plus the first product; at k > 0 it hands it over at what the point before left and takes it back at
    that plus this point's product; at k = 15 the output's buffer is left at the result block, elsewhere it is idle
    and handed back as it came. The first call's staging buffers pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 16 = 0
  · have h1 : ¬ t.val % 16 = 15 := by omega
    rw [Dat.leavesExact_idle (dat1 V c) 5 t (idleAt1_5 t (fun h => h1 ((hcondLast t).mp h))) (noFlush1_5 t (fun h => h1 ((hcondLast t).mp h)))]
    rw [accAt_first V c t h0]
    by_cases hz : t.val = 0
    · rw [PhiS1_castSucc V c t, PhiS1_zero V c _ _ hz, PhiA1_eq]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ ((hcondFirst t).mpr h0) (fun h => h1 ((hcondLast t).mp h)) (iblk1 V c 0 t) (iblk1 V c 1 t) (iblk1 V c 2 t) _)
      isplitl [H0]; · iexact H0
      isplitl [H1]; · iexact H1
      isplitl [H2]; · iexact H2
      isplitl [HS]; · iexact HS
      iintro ⟨H0, H1, H2, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ ((hcondFirst t).mpr h0) (fun h => h1 ((hcondLast t).mp h)) (iblk1 V c 0 t) (iblk1 V c 1 t) (iblk1 V c 2 t) _)
      isplitl [H0]; · iexact H0
      isplitl [H1]; · iexact H1
      isplitl [H2]; · iexact H2
      isplitl [HS]; · iexists _; iexact HS
      iintro ⟨H0, H1, H2, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by omega)
    by_cases h1 : t.val % 16 = 15
    · rw [show (dat1 V c).leavesExact 5 t = owns (c : Thread nD τ) (st1_5 t) fullShare ((dat1 V c).after 5 t) from by
        unfold Dat.leavesExact; rw [liveAt1_5 t ((hcondLast t).mpr h1)], after1_5]
      unfold outAt
      rw [accAt_next V c t h0]
      rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ _ _ (fun h => h0 ((hcondFirst t).mp h)) ((hcondLast t).mpr h1) (iblk1 V c 0 t) (iblk1 V c 1 t) _ (iblk1 V c 3 t) (iblk1 V c 4 t) _)
      isplitl [H0]; · iexact H0
      isplitl [H1]; · iexact H1
      isplitl [H3]; · iexact H3
      isplitl [H4]; · iexact H4
      isplitl [H5]; · iexists _; iexact H5
      isplitl [HS]; · iexact HS
      iintro ⟨H0, H1, H3, H4, H5, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcondLast t).mp h))) (noFlush1_5 t (fun h => h1 ((hcondLast t).mp h)))]
      rw [accAt_next V c t h0]
      rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ _ _ (fun h => h0 ((hcondFirst t).mp h)) (fun h => h1 ((hcondLast t).mp h)) (iblk1 V c 0 t) (iblk1 V c 1 t) _ _)
      isplitl [H0]; · iexact H0
      isplitl [H1]; · iexact H1
      isplitl [HS]; · iexact HS
      iintro ⟨H0, H1, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  unfold scopedWith
  iintro ⟨⟨B0, B1, B2, B3, B4, B5, B6, B7, HS⟩, Hg⟩
  isplitl [B0 B1 B2 B3 B4 B5 B6 B7 HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsKernelRun.lean ====
/-
  The kernel program's run: its two pallas_calls one after the other on each core. Between them the core's unscoped
  buffers are held at named contents: at launch the memory; after the first call the degree-factor column and the scaled
  features at what that call's pipeline leaves (`Wa`); after the second the result array at what the second call's
  pipeline leaves (`Wb`). Each call is a region of the run: its arrays are taken out of the buffers at its entry and put
  back at its exit. The second call reads the scaled features through two windows, which hold that array half each.
-/
import proofs.«121199_j53403623358621_1_alg».proof.Proof.BitsDegreeRegion
import proofs.«121199_j53403623358621_1_alg».proof.Proof.BitsAggBody
import proofs.«121199_j53403623358621_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the calls -/

/-- The core's buffers at launch, read at the TensorCore's references. -/
abbrev Ve0 : (c : Dev nD) → (b : Ref sig .tc) → Buf (Elt F) ((c : Thread nD τ).loc b) := fun c b => Gen.V0 m c b

/-- After the first call: the degree-factor column and the scaled features at what its pipeline leaves. -/
def Wa (c : Dev nD) : Valuation τ sig (Elt F) :=
  Function.update (Function.update (Gen.V0 m c) main_v0_0 ((dat0 (Ve0 m) c).arrAt 2 cfg0.N)) main_v0_1 ((dat0 (Ve0 m) c).arrAt 3 cfg0.N)

abbrev Ve1 : (c : Dev nD) → (b : Ref sig .tc) → Buf (Elt F) ((c : Thread nD τ).loc b) := fun c b => Wa m c b

/-- After the second call: the result array at what its pipeline leaves. -/
def Wb (c : Dev nD) : Valuation τ sig (Elt F) :=
  Function.update (Wa m c) main_v1 ((dat1 (Ve1 m) c).arrAt 5 cfg1.N)

theorem ne_dev {r r' : Ref sig .tc} (h : r ≠ r') : (Proc.devRef .tc r : DevRef τ sig) ≠ Proc.devRef .tc r' :=
  StableHlo.devRef_ne_of_ne h

theorem Wa_v0_0 (c : Dev nD) : Wa m c main_v0_0 = (dat0 (Ve0 m) c).arrAt 2 cfg0.N := by
  unfold Wa
  rw [Function.update_of_ne (ne_dev (by decide : main_v0_0 ≠ main_v0_1)), Function.update_self]

theorem Wa_v0_1 (c : Dev nD) : Wa m c main_v0_1 = (dat0 (Ve0 m) c).arrAt 3 cfg0.N := by
  unfold Wa
  rw [Function.update_self]

theorem Wa_of (c : Dev nD) (r : Ref sig .tc) (h0 : r ≠ main_v0_0) (h1 : r ≠ main_v0_1) : Wa m c r = Gen.V0 m c r := by
  unfold Wa
  rw [Function.update_of_ne (ne_dev h1), Function.update_of_ne (ne_dev h0)]

theorem Wb_v1 (c : Dev nD) : Wb m c main_v1 = (dat1 (Ve1 m) c).arrAt 5 cfg1.N := by
  unfold Wb
  rw [Function.update_self]

theorem Wb_of (c : Dev nD) (r : Ref sig .tc) (h : r ≠ main_v1) : Wb m c r = Wa m c r := by
  unfold Wb
  rw [Function.update_of_ne (ne_dev h)]

/-- What the two calls leave, as the unknowns of the conditional frame. -/
def outs : Gen.Outs (F := F) := fun J r c => if J = 1 then Wa m c r else Wb m c r

theorem V1_eq (c : Dev nD) : Gen.V1 m (outs m) c = Wa m c := by
  show Function.update (Function.update (Gen.V0 m c) main_v0_0 (Wa m c main_v0_0)) main_v0_1 (Wa m c main_v0_1) = Wa m c
  rw [Wa_v0_0, Wa_v0_1]; rfl

theorem V2_eq (c : Dev nD) : Gen.V2 m (outs m) c = Wb m c := by
  show Function.update (Gen.V1 m (outs m) c) main_v1 (Wb m c main_v1) = Wb m c
  rw [V1_eq, Wb_v1]; rfl

/-! ## The first call's exit contents -/

theorem hF0 (c : Dev nD) (w : Fin cfg0.W) : (dat0 (Ve0 m) c).arrAt w cfg0.N = Ve1 m c (Pipeline.arrRef spec0 w) := by
  match w with
  | ⟨0, _⟩ => exact ((dat0 (Ve0 m) c).arrAt_in 0 rfl _).trans ((A_eq0 (Ve0 m) c 0).trans (Wa_of m c main_arg1 (by decide) (by decide)).symm)
  | ⟨1, _⟩ => exact ((dat0 (Ve0 m) c).arrAt_in 1 rfl _).trans ((A_eq0 (Ve0 m) c 1).trans (Wa_of m c main_arg0 (by decide) (by decide)).symm)
  | ⟨2, _⟩ => exact (Wa_v0_0 m c).symm
  | ⟨3, _⟩ => exact (Wa_v0_1 m c).symm

theorem hrest0 (c : Dev nD) : ∀ b, b ∉ Finset.univ.image (Pipeline.arrRef spec0) → Ve1 m c b = Ve0 m c b := fun b hb =>
  Wa_of m c b (fun e => hb (Finset.mem_image.mpr ⟨2, Finset.mem_univ _, e.symm⟩)) (fun e => hb (Finset.mem_image.mpr ⟨3, Finset.mem_univ _, e.symm⟩))

/-! ## The proof data family and what rides beside the buffers -/

abbrev adm : (p : Fin 2) → (pcfgs (F := F) p).Adm := fun p => (cfgs p).toPCfg_adm

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c

abbrev 𝒱₀ : Variants := Variants.none
abbrev L : GSem nD τ sig → Finset Unit := fun _ => ∅
abbrev lv : GSem nD τ sig → Unit → ℕ := fun _ _ => 0

/-- Beside the buffers through the whole run: the core's generator register at some state, and the core owing nothing. -/
abbrev R (c : Dev nD) : sProp 𝕄 := iprop((∃ r, prngReg c r) ∗ ∃ W, owes (c : Thread nD τ) (0 : CellTallies nD τ sig Unit) W)

/-! ## The first call as a region of the run -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call's arrays: five buffers behind six windows -/

/-- The distinct buffers behind the second call's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v0_1) ↦{fullShare} V' main_v0_1)
          ∗ (((c : Thread nD τ).loc main_v0_0) ↦{fullShare} V' main_v0_0) ∗ (((c : Thread nD τ).loc main_arg2) ↦{fullShare} V' main_arg2)
          ∗ (((c : Thread nD τ).loc main_v1) ↦{fullShare} V' main_v1)) := by
  unfold Pipeline.arrBufs
  exact bigSep_eq_bigSepL_of_eq [main_arg1, main_v0_1, main_v0_0, main_arg2, main_v1] (by decide) (by decide) _

/-- The second call's windowed arrays, one by one: the scaled features' array appears twice, half its share each. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_arg2) ↦{fullShare} G 4) ∗ (((c : Thread nD τ).loc main_v1) ↦{fullShare} G 5)) := by
  unfold Dat.arrays
  rw [bigSep_W1, (arr_whole1 0).set_eq_univ, (arr_whole1 1).set_eq_univ, (arr_whole1 3).set_eq_univ,
    (arr_whole1 4).set_eq_univ, (arr_whole1 5).set_eq_univ]
  rfl

/-- The buffers after the second call, read at the TensorCore's references. -/
abbrev Veb : (c : Dev nD) → (b : Ref sig .tc) → Buf (Elt F) ((c : Thread nD τ).loc b) := fun c b => Wb m c b

/-- What the second call's pipeline leaves in each window's array is the exit contents: an input's array is as entered,
    the output's is the result. -/
theorem hF1 (c : Dev nD) (w : Fin cfg1.W) : (dat1 (Ve1 m) c).arrAt w cfg1.N = Veb m c (Pipeline.arrRef spec1 w) := by
  match w with
  | ⟨0, _⟩ => exact ((dat1 (Ve1 m) c).arrAt_in 0 rfl _).trans ((A_eq1 (Ve1 m) c 0).trans (Wb_of m c main_arg1 (by decide)).symm)
  | ⟨1, _⟩ => exact ((dat1 (Ve1 m) c).arrAt_in 1 rfl _).trans ((A_eq1 (Ve1 m) c 1).trans (Wb_of m c main_v0_1 (by decide)).symm)
  | ⟨2, _⟩ => exact ((dat1 (Ve1 m) c).arrAt_in 2 rfl _).trans ((A_eq1 (Ve1 m) c 2).trans (Wb_of m c main_v0_1 (by decide)).symm)
  | ⟨3, _⟩ => exact ((dat1 (Ve1 m) c).arrAt_in 3 rfl _).trans ((A_eq1 (Ve1 m) c 3).trans (Wb_of m c main_v0_0 (by decide)).symm)
  | ⟨4, _⟩ => exact ((dat1 (Ve1 m) c).arrAt_in 4 rfl _).trans ((A_eq1 (Ve1 m) c 4).trans (Wb_of m c main_arg2 (by decide)).symm)
  | ⟨5, _⟩ => exact (Wb_v1 m c).symm

set_option backward.isDefEq.respectTransparency.types false in
/-- ENTRY of the second call: the core's unscoped buffers are its windowed arrays at their entry contents — the scaled
    features' array split in two halves, one per window reading it — and the one buffer it does not touch. -/
theorem entry_arrays1 (c : Dev nD) :
    (unscopedBufs c (Ve1 m c) : sProp 𝕄)
      ⊢ iprop((dat1 (Ve1 m) c).arrays ((dat1 (Ve1 m) c).arrAt · 0)
          ∗ Pipeline.unscopedRest (Ix := Unit) (Name := ℕ) (U := UR sig nD τ) (Lvl := ℕ) spec1 c (Ve1 m c)) := by
  rw [Pipeline.unscopedBufs_split₀ (Pipeline.pin (pcfgs (F := F)) adm) 1 winFacts₀1.arr_unscoped c (Ve1 m c)]
  refine sep_mono ?_ .rfl
  show (Pipeline.arrBufs (Ix := Unit) (Name := ℕ) (U := UR sig nD τ) (Lvl := ℕ) spec1 c (Ve1 m c) : sProp 𝕄) ⊢ _
  rw [arrBufs1_eq, arrays1_eq]
  iintro ⟨H0, H1, H2, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  iexact H4

set_option backward.isDefEq.respectTransparency.types false in
/-- EXIT of the second call: its arrays at what its pipeline leaves — the two halves of the scaled features' array joined
    again — and the buffer it did not touch are the core's unscoped buffers at the exit contents. -/
theorem exit_arrays1 (c : Dev nD) :
    iprop((dat1 (Ve1 m) c).arrays ((dat1 (Ve1 m) c).arrAt · cfg1.N)
          ∗ Pipeline.unscopedRest (Ix := Unit) (Name := ℕ) (U := UR sig nD τ) (Lvl := ℕ) spec1 c (Ve1 m c))
      ⊢ (unscopedBufs c (Veb m c) : sProp 𝕄) := by
  rw [Pipeline.unscopedBufs_split₀ (Pipeline.pin (pcfgs (F := F)) adm) 1 winFacts₀1.arr_unscoped c (Veb m c)]
  refine sep_mono ?_ (Entails.of_eq ?_)
  · show _ ⊢ (Pipeline.arrBufs (Ix := Unit) (Name := ℕ) (U := UR sig nD τ) (Lvl := ℕ) spec1 c (Veb m c) : sProp 𝕄)
    rw [arrBufs1_eq, arrays1_eq, hF1 m c 0, hF1 m c 1, hF1 m c 2, hF1 m c 3, hF1 m c 4, hF1 m c 5]
    iintro ⟨H0, H1l, H1r, H2, H3, H4⟩
    isplitl [H0]; · iexact H0
    isplitl [H1l H1r]
    · iapply (pointsTo_share (PosShare.mem_left_op_right fullShare)).2
      isplitl [H1l]; · iexact H1l
      iexact H1r
    isplitl [H2]; · iexact H2
    isplitl [H3]; · iexact H3
    iexact H4
  · show (Pipeline.unscopedRest (Ix := Unit) (Name := ℕ) (U := UR sig nD τ) (Lvl := ℕ) spec1 c (Ve1 m c) : sProp 𝕄)
      = Pipeline.unscopedRest (Ix := Unit) (Name := ℕ) (U := UR sig nD τ) (Lvl := ℕ) spec1 c (Veb m c)
    rw [unscopedRest1_eq, unscopedRest1_eq, show Veb m c main_arg0 = Ve1 m c main_arg0 from Wb_of m c main_arg0 (by decide)]

/-! ## The second call as a region of the run -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry_arrays1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Ve1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Ve1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N)
          ∗ Pipeline.unscopedRest (Ix := Unit) (Name := ℕ) (U := UR sig nD τ) (Lvl := ℕ) (Pipeline.pin (pcfgs (F := F)) adm 1).spec c (Ve1 m c))
        ⊢ (StableHlo.held (c : Thread nD τ) (Pipeline.ucRefs τ sig) (Wb m c) : sProp 𝕄) := by
      have h := exit_arrays1 m c
      rw [Pipeline.unscopedBufs_held] at h
      exact h
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the run's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the TensorCores
    terminates, nothing faulting, and in every final state the result array holds what the second call's pipeline leaves
    (from entry contents that hold what the first call's pipeline leaves) and the three argument arrays are as launched. -/
theorem run_value : θ_run defs (onTc (τ := τ) (main (F := F))) ⟨m, fun _ => 0, ρ⟩ (fun r => ∀ c : Dev nD,
      r.2.mem ((c.tc : Thread nD τ).loc main_v1) = (dat1 (Ve1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wb m c) ∗ ∃ r, prngReg c r))
    (hch := ⟨fun _ => .rfl, fun _ => .rfl, fun c => by
      show iprop(StableHlo.held (c : Thread nD τ) (Pipeline.ucRefs τ sig) (Wb m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c =>
      ⟨(h c _ (mem_uc main_v1 (by decide))).trans (Wb_v1 m c),
       (h c _ (mem_uc main_arg0 (by decide))).trans ((Wb_of m c main_arg0 (by decide)).trans (Wa_of m c main_arg0 (by decide) (by decide))),
       (h c _ (mem_uc main_arg1 (by decide))).trans ((Wb_of m c main_arg1 (by decide)).trans (Wa_of m c main_arg1 (by decide) (by decide))),
       (h c _ (mem_uc main_arg2 (by decide))).trans ((Wb_of m c main_arg2 (by decide)).trans (Wa_of m c main_arg2 (by decide) (by decide)))⟩)

/-- THE FRAME: the program runs to the end, nothing faulting, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.Kernel.Hand

end
-- ==== Proof.DegreeRegion.lean ====
/-
  The first pallas_call of the kernel program, region by itself: for each block of 128 rows it adds up each row of the
  adjacency block, adds one, takes the reciprocal square root (the degree factor of the row) and writes that column
  out, and writes out the feature rows each multiplied by its row's factor. Stated at any contents `V` of the core's
  buffers at the region's entry and at any float instance: what each staging buffer holds after the body at a grid
  point (the proof data), and that the body, run on the pipeline's staging buffers at that point, leaves exactly that.
-/
import proofs.«121199_j53403623358621_1_alg».proof.Proof.Gen.KernelIdeal.Launch
import proofs.«121199_j53403623358621_1_alg».proof.Proof.Gen.KernelIdeal.Skeleton
import proofs.«121199_j53403623358621_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency window's staging buffer holds its block of 128 rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The feature window's staging buffer holds its block of 128 rows at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rA0 : Rect S128x16384 := Rect.unit (s := S128x16384) ![0, 0] S128x16384.size inb_S128x16384_S128x16384_0_0
abbrev rF0 : Rect S128x256 := Rect.unit (s := S128x256) ![0, 0] S128x256.size inb_S128x256_S128x256_0_0
abbrev rD0 : Rect S128x1 := Rect.unit (s := S128x1) ![0, 0] S128x1.size inb_S128x1_S128x1_0_0

/-- The degree-factor column the body leaves: one store of the whole block. -/
def degOut (a : Vec F S128x16384 .f32) : Vec F S128x1 .f32 :=
  View.canon [⟨rD0, k0_pay1 (View.ld a rA0)⟩]

/-- The scaled feature rows the body leaves: one store of the whole block. -/
def scaledOut (a : Vec F S128x16384 .f32) (x : Vec F S128x256 .f32) : Vec F S128x256 .f32 :=
  View.canon [⟨rF0, k0_pay2 (View.ld a rA0) (View.ld x rF0)⟩]

theorem coverDeg (p0 : Vec F S128x1 .f32) (y : S128x1.Idx) :
    ∃ pc ∈ ([⟨rD0, p0⟩] : List (View.Piece (Elt F) S128x1 .f32)), y ∈ pc.1.set :=
  View.cover_of_tiled [⟨rD0, p0⟩] S128x1.size (by rfl) y

theorem coverScaled (p0 : Vec F S128x256 .f32) (y : S128x256.Idx) :
    ∃ pc ∈ ([⟨rF0, p0⟩] : List (View.Piece (Elt F) S128x256 .f32)), y ∈ pc.1.set :=
  View.cover_of_tiled [⟨rF0, p0⟩] S128x256.size (by rfl) y

set_option maxHeartbeats 1000000 in
/-- The body on whole staging buffers: the two inputs at contents `a`, `x` and the two outputs at anything; it ends with the
    inputs as they were and the outputs at the degree-factor column and the scaled rows of `a`, `x`. -/
theorem sound_kernel0 (c : Dev nD) (E : Set ℕ) (i : grid0.Coords)
    (arg1 : Memref sig .tc .vmem S128x16384 .f32) (harg1 : arg1.IsWhole) (arg2 : Memref sig .tc .vmem S128x256 .f32) (harg2 : arg2.IsWhole)
    (arg3 : Memref sig .tc .vmem S128x1 .f32) (harg3 : arg3.IsWhole) (arg4 : Memref sig .tc .vmem S128x256 .f32) (harg4 : arg4.IsWhole)
    (a : Vec F S128x16384 .f32) (x : Vec F S128x256 .f32) (K : PUnit → sProp 𝕄) :
    iprop(owns (c : Thread nD τ) arg1 fullShare a ∗ owns (c : Thread nD τ) arg2 fullShare x
        ∗ (∃ d, owns (c : Thread nD τ) arg3 fullShare d) ∗ (∃ d, owns (c : Thread nD τ) arg4 fullShare d)
        ∗ (iprop(owns (c : Thread nD τ) arg1 fullShare a ∗ owns (c : Thread nD τ) arg2 fullShare x
            ∗ owns (c : Thread nD τ) arg3 fullShare (degOut a) ∗ owns (c : Thread nD τ) arg4 fullShare (scaledOut a x)) -∗ K ⟨⟩))
      ⊢ wp frame (wpE (defs₀ (F := F)) Variants.none c none) E (cc0__degree_kernel i arg1 harg1 arg2 harg2 arg3 harg3 arg4 harg4) K := by
  simp only [cc0__degree_kernel_eq_skeleton]; unfold cc0__degree_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverDeg _)
  iexists _; isplitr
  swap; · iexact H3
  ipureintro
  exact View.read_writes_eq_canon _ _ _ (coverScaled _)

/-- The proof data of the first pallas_call on core `c`: the arrays as the region finds them; after the body at point
    `t` the inputs' buffers at their blocks, the outputs' at the degree-factor column and the scaled rows of those blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => degOut (iblk0 V c 0 t)
    | ⟨3, _⟩ => scaledOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = degOut (iblk0 V c 0 t) := by dsimp only [dat0]
theorem after0_3 (c : Dev nD) (t : Fin cfg0.N) : (dat0 V c).after 3 t = scaledOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AggRegion.lean ====
/-
  The second pallas_call of the kernel program, region by itself, on its grid of 16 × 16 points (row block i, column
  block k; point t = 16·i + k). At k = 0 the body copies the row block's scaled features into an accumulator it keeps in
  scratch memory; at every k it adds the product of the adjacency block (i, k) with the scaled features of row block k;
  at k = 15 it multiplies the accumulated rows by the rows' degree factors, applies the weights, clamps at zero,
  divides each row by its floored Euclidean length and stores the result block, which is written back only then.
  Stated at any contents `V` of the core's buffers at the region's entry and at any float instance: what the accumulator
  holds after each point (`accAt`, by recursion on the point), what the output's staging buffer holds after a point
  where it is stored (`outAt`), the region's invariant carrying the accumulator from point to point, and that the body,
  run on the pipeline's staging buffers at a point, leaves exactly that.
-/
import proofs.«121199_j53403623358621_1_alg».proof.Proof.Gen.KernelIdeal.Launch
import proofs.«121199_j53403623358621_1_alg».proof.Proof.Gen.KernelIdeal.Skeleton
import proofs.«121199_j53403623358621_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditions, in closed form over the grid -/

/-- `k = 0`: the accumulator is reset. -/
abbrev condFirst (i : grid1.Coords) : Prop := (Scalar.cmpi .ne (Scalar.extui (Scalar.cmpi .eq (BitVec.ofNat 32 (i 1).val) 0#32)) 0#32) = 1#1
theorem hcondFirst : ∀ t : Fin cfg1.N, condFirst (grid1.coords t) ↔ t.val % 16 = 0 :=
  (by decide +kernel : ∀ t : Fin grid1.N, condFirst (grid1.coords t) ↔ t.val % 16 = 0)

/-- `k = 15`: the result block is computed and stored. -/
abbrev condLast (i : grid1.Coords) : Prop := k1_cond2 i = 1#1
theorem hcondLast : ∀ t : Fin cfg1.N, condLast (grid1.coords t) ↔ t.val % 16 = 15 :=
  (by decide +kernel : ∀ t : Fin grid1.N, condLast (grid1.coords t) ↔ t.val % 16 = 15)

/-! ## What the accumulator and the output buffer hold -/

/-- The accumulator after point `n`: at the first column block the row block's scaled features plus the first product,
    afterwards what the point before left plus this point's product. -/
def accAt (c : Dev nD) : (n : ℕ) → n < cfg1.N → Vec F S1024x256 .f32
  | 0, hn => k1_pay2 (iblk1 V c 0 ⟨0, hn⟩) (iblk1 V c 1 ⟨0, hn⟩) (k1_pay1 (iblk1 V c 2 ⟨0, hn⟩))
  | n + 1, hn =>
    if (n + 1) % 16 = 0 then k1_pay2 (iblk1 V c 0 ⟨n + 1, hn⟩) (iblk1 V c 1 ⟨n + 1, hn⟩) (k1_pay1 (iblk1 V c 2 ⟨n + 1, hn⟩))
    else k1_pay2 (iblk1 V c 0 ⟨n + 1, hn⟩) (iblk1 V c 1 ⟨n + 1, hn⟩) (accAt c n (Nat.lt_of_succ_lt hn))

theorem accAt_first (c : Dev nD) (t : Fin cfg1.N) (h : t.val % 16 = 0) :
    accAt V c t.val t.isLt = k1_pay2 (iblk1 V c 0 t) (iblk1 V c 1 t) (k1_pay1 (iblk1 V c 2 t)) := by
  obtain ⟨n, hn⟩ := t
  cases n with
  | zero => rfl
  | succ n => exact if_pos h

theorem accAt_next (c : Dev nD) (t : Fin cfg1.N) (h : ¬ t.val % 16 = 0) :
    accAt V c t.val t.isLt = k1_pay2 (iblk1 V c 0 t) (iblk1 V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The result block the body stores at the last column block, from the accumulator as that point leaves it. (At the
    other points the output window is idle and nothing reads this.) -/
def outAt (c : Dev nD) (t : Fin cfg1.N) : Vec F S1024x256 .f32 :=
  k1_pay3 (iblk1 V c 3 t) (accAt V c t.val t.isLt) (iblk1 V c 4 t)

/-! ## The region's invariant -/

/-- The accumulator: the pallas_call's scratch operand, a whole scoped buffer. -/
abbrev scM1 : Memref sig .tc .vmem S1024x256 .f32 := Memref.whole cc1_scratch0

/-- The core's scoped buffers that the second pallas_call does not stage — the first call's eight staging buffers, each
    at anything — beside the accumulator in the state `S`. -/
def scopedWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

/-- The class invariant of the launch (every scoped buffer the call does not stage at anything, the generator register
    at some state) with the accumulator singled out. -/
theorem PhiA1_eq (c : Dev nD) :
    (Pipeline.ΦA spec1 c : sProp 𝕄)
      = iprop(scopedWith c (iprop(∃ d, owns (c : Thread nD τ) scM1 fullShare d)) ∗ (∃ r, prngReg c r)) := by
  unfold Pipeline.ΦA scopedWith; rw [scopedRest1_eq]; simp only [scM1, owns_whole]; try rfl

/-- The invariant before position `n`: before the first point the launch's; afterwards the accumulator at what the point
    before left in it. -/
def PhiS1 (c : Dev nD) : (n : ℕ) → n ≤ cfg1.N → sProp 𝕄
  | 0, _ => Pipeline.ΦA spec1 c
  | n + 1, hn => iprop(scopedWith c (owns (c : Thread nD τ) scM1 fullShare (accAt V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scopedWith c (owns (c : Thread nD τ) scM1 fullShare (accAt V c n hn)) ∗ (∃ r, prngReg c r)) := rfl

theorem PhiS1_pos (c : Dev nD) (n : ℕ) (h : n ≤ cfg1.N) (hz : n ≠ 0) :
    PhiS1 V c n h = iprop(scopedWith c (owns (c : Thread nD τ) scM1 fullShare (accAt V c (n - 1) (by omega))) ∗ (∃ r, prngReg c r)) := by
  cases n with
  | zero => exact absurd rfl hz
  | succ n => rfl

/-! ## The proof data -/

/-- The proof data of the second pallas_call on core `c`: the arrays as the region finds them; after the body at point
    `t` each input's buffer at its block and the output's at `outAt`; the invariant carrying the accumulator; the scaled
    features' array, which two windows read, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

end Cert.KernelIdeal.Hand

end
-- ==== Proof.AggBody.lean ====
/-
  The second pallas_call's body obligation: at every grid point the body, handed the input blocks, the output's staging
  buffer and the accumulator as the point before left it, leaves the accumulator and (at the last column block) the
  output's buffer at what the proof data say. The body is run once per control case on whole staging buffers (k = 0:
  the accumulator is reset and updated; 0 < k < 15: updated; k = 15: updated, and the result block computed from it
  and stored); each run's final contents are read back as the payload terms the proof data are stated over.
-/
import proofs.«121199_j53403623358621_1_alg».proof.Proof.AggRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets, as the body's loads and stores spell them. -/
theorem zeroOff2 : (![0, 0] : Fin 2 → Nat) = fun _ => 0 := funext fun a => by fin_cases a <;> rfl

/-- After a list of stores whose last goes through the whole-shape rectangle at zero offsets, the buffer reads as that
    store's payload, whatever the earlier stores and the contents before them were. -/
theorem read_writes_cons_whole {σ : RefSig} {κ : Kind} {sp : Space} {S : Shape} {e : EltTy} {Val : EltTy → Type} [∀ e, Nonempty (Val e)]
    (v : View σ κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨⟨Rect.unit off S.size inb, w⟩, List.mem_cons.mpr (Or.inl rfl), View.mem_set_unit_zero h inb y⟩)).trans
    (View.canon_cons_unit_zero h inb w L)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the result block is not stored the output window is idle, -/
theorem idleAt1_5 : ∀ t : Fin cfg1.N, ¬condLast (grid1.coords t) → cfg1.idle 5 (grid1.coords t) = true := by decide +kernel
/-- and not written back; -/
theorem noFlush1_5 : ∀ t : Fin cfg1.N, ¬condLast (grid1.coords t) → (cfg1.win 5).flush t = false := by decide +kernel
/-- where it is stored the window is live. -/
theorem liveAt1_5 : ∀ t : Fin cfg1.N, condLast (grid1.coords t) → cfg1.idle 5 (grid1.coords t) = false := by decide +kernel

/-! ## The input windows' staging buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-! ## The body on whole staging buffers, one run per control case -/

set_option maxHeartbeats 1000000 in
/-- The body at a point with k = 0, on whole staging buffers: the first branch is taken, the second is not. The
    accumulator, handed in at anything, is first set to the row block's scaled features `x2` and then, read back, left
    at that plus the product of the adjacency block with the feature block. -/
theorem sound_kernel1_A (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : condFirst i) (hc1 : ¬condLast i)
    (x0 : Vec F S1024x1024 .f32) (x1 x2 : Vec F S1024x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg8 fullShare (k1_pay2 x0 x1 (k1_pay1 x2))) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

set_option maxHeartbeats 1000000 in
/-- The body at a point with 0 < k < 15, on whole staging buffers: neither branch is taken; the accumulator, handed in
    at `xs`, is left at `xs` plus the product of the adjacency block with the feature block. -/
theorem sound_kernel1_B (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : ¬condLast i)
    (x0 : Vec F S1024x1024 .f32) (x1 xs : Vec F S1024x256 .f32) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k1_pay2 x0 x1 xs)) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

set_option maxHeartbeats 1000000 in
/-- The body at a point with k = 15, on whole staging buffers: the first branch is not taken, the second is. The
    accumulator, handed in at `xs`, is left at `xs` plus the product; the output's buffer, handed in at anything, is left
    at the result block computed from the degree factors `x3`, the accumulator as just stored (read back) and the
    weights `x4`. -/
theorem sound_kernel1_C (c : Dev nD) (E : Set ℕ) (i : grid1.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x256 .f32) (harg6 : arg6.IsWhole) (arg7 : Memref sig .tc .vmem S1024x256 .f32) (harg7 : arg7.IsWhole) (arg8 : Memref sig .tc .vmem S1024x256 .f32) (harg8 : arg8.IsWhole)
    (hc0 : ¬condFirst i) (hc1 : condLast i)
    (x0 : Vec F S1024x1024 .f32) (x1 xs : Vec F S1024x256 .f32) (x3 : Vec F S1024x1 .f32) (x4 : Vec F S256x256 .f32) (K : PUnit → sProp 𝕄) :
    iprop(owns (c : Thread nD τ) arg2 fullShare x0 ∗ owns (c : Thread nD τ) arg3 fullShare x1 ∗ owns (c : Thread nD τ) arg5 fullShare x3
        ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg5 fullShare x3
            ∗ owns (c : Thread nD τ) arg6 fullShare x4 ∗ owns (c : Thread nD τ) arg7 fullShare (k1_pay3 x3 (k1_pay2 x0 x1 xs) x4)
            ∗ owns (c : Thread nD τ) arg8 fullShare (k1_pay2 x0 x1 xs)) -∗ K ⟨⟩))
      ⊢ wp frame (wpE (defs₀ (F := F)) Variants.none c none) E (cc1__agg_kernel i arg2 harg2 arg3 harg3 arg4 harg4 arg5 harg5 arg6 harg6 arg7 harg7 arg8 harg8) K := by
  simp only [cc1__agg_kernel_eq_skeleton]; unfold cc1__agg_kernel_skel
  unfold owns
  iintro ⟨⟨%f0, %hf0, H0⟩, ⟨%f1, %hf1, H1⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg5.eq_unread hf3
  obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    rw [read_writes_cons_whole (S := S1024x256) _ _ zeroOff2]
    simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]
  iexists _; isplitr
  swap; · iexact HS
  ipureintro
  sl_unfold_words
  rw [read_writes_cons_whole (S := S1024x256) _ _ zeroOff2]
  simp only [View.readAt_eq_ld, View.readCov_unit_zero (S := S1024x256) _ zeroOff2, harg2.read_unread, harg3.read_unread, harg4.read_unread, harg5.read_unread, harg6.read_unread, harg8.read_unread, View.ld_unit_zero (S := S1024x1024) zeroOff2, View.ld_unit_zero (S := S1024x256) zeroOff2, View.ld_unit_zero (S := S1024x1) zeroOff2, View.ld_unit_zero (S := S256x256) zeroOff2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's column block says which branches run.
    At k = 0 the invariant hands the accumulator over at whatever it holds and takes it back at the row block's scaled
    features plus the first product; at k > 0 it hands it over at what the point before left and takes it back at
    that plus this point's product; at k = 15 the output's buffer is left at the result block, elsewhere it is idle
    and handed back as it came. The first call's staging buffers pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 16 = 0
  · have h1 : ¬ t.val % 16 = 15 := by omega
    rw [Dat.leavesExact_idle (dat1 V c) 5 t (idleAt1_5 t (fun h => h1 ((hcondLast t).mp h))) (noFlush1_5 t (fun h => h1 ((hcondLast t).mp h)))]
    rw [accAt_first V c t h0]
    by_cases hz : t.val = 0
    · rw [PhiS1_castSucc V c t, PhiS1_zero V c _ _ hz, PhiA1_eq]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ ((hcondFirst t).mpr h0) (fun h => h1 ((hcondLast t).mp h)) (iblk1 V c 0 t) (iblk1 V c 1 t) (iblk1 V c 2 t) _)
      isplitl [H0]; · iexact H0
      isplitl [H1]; · iexact H1
      isplitl [H2]; · iexact H2
      isplitl [HS]; · iexact HS
      iintro ⟨H0, H1, H2, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_A c Set.univ (grid1.coords t) _ _ _ _ _ _ _ _ _ _ _ _ _ _ ((hcondFirst t).mpr h0) (fun h => h1 ((hcondLast t).mp h)) (iblk1 V c 0 t) (iblk1 V c 1 t) (iblk1 V c 2 t) _)
      isplitl [H0]; · iexact H0
      isplitl [H1]; · iexact H1
      isplitl [H2]; · iexact H2
      isplitl [HS]; · iexists _; iexact HS
      iintro ⟨H0, H1, H2, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by omega)
    by_cases h1 : t.val % 16 = 15
    · rw [show (dat1 V c).leavesExact 5 t = owns (c : Thread nD τ) (st1_5 t) fullShare ((dat1 V c).after 5 t) from by
        unfold Dat.leavesExact; rw [liveAt1_5 t ((hcondLast t).mpr h1)], after1_5]
      unfold outAt
      rw [accAt_next V c t h0]
      rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_C c Set.univ (grid1.coords t) _ _ _ _ _ _ _ _ _ _ _ _ _ _ (fun h => h0 ((hcondFirst t).mp h)) ((hcondLast t).mpr h1) (iblk1 V c 0 t) (iblk1 V c 1 t) _ (iblk1 V c 3 t) (iblk1 V c 4 t) _)
      isplitl [H0]; · iexact H0
      isplitl [H1]; · iexact H1
      isplitl [H3]; · iexact H3
      isplitl [H4]; · iexact H4
      isplitl [H5]; · iexists _; iexact H5
      isplitl [HS]; · iexact HS
      iintro ⟨H0, H1, H3, H4, H5, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcondLast t).mp h))) (noFlush1_5 t (fun h => h1 ((hcondLast t).mp h)))]
      rw [accAt_next V c t h0]
      rw [PhiS1_castSucc V c t, PhiS1_pos V c _ _ hz]
      unfold scopedWith
      iintro ⟨⟨⟨B0, B1, B2, B3, B4, B5, B6, B7, HS⟩, Hg⟩, Ho, ⟨%d0, H0⟩, ⟨%d1, H1⟩, ⟨%d2, H2⟩, ⟨%d3, H3⟩, ⟨%d4, H4⟩, ⟨%d5, H5⟩⟩
      iapply (sound_kernel1_B c Set.univ (grid1.coords t) _ _ _ _ _ _ _ _ _ _ _ _ _ _ (fun h => h0 ((hcondFirst t).mp h)) (fun h => h1 ((hcondLast t).mp h)) (iblk1 V c 0 t) (iblk1 V c 1 t) _ _)
      isplitl [H0]; · iexact H0
      isplitl [H1]; · iexact H1
      isplitl [HS]; · iexact HS
      iintro ⟨H0, H1, HS⟩
      isplitl [B0 B1 B2 B3 B4 B5 B6 B7 HS Hg]
      · isplitl [B0 B1 B2 B3 B4 B5 B6 B7 HS]
        · isplitl [B0]; · iexact B0
          isplitl [B1]; · iexact B1
          isplitl [B2]; · iexact B2
          isplitl [B3]; · iexact B3
          isplitl [B4]; · iexact B4
          isplitl [B5]; · iexact B5
          isplitl [B6]; · iexact B6
          isplitl [B7]; · iexact B7
          iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- After the last point the invariant gives the launch's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 256 := N_1; omega), PhiA1_eq]
  unfold scopedWith
  iintro ⟨⟨B0, B1, B2, B3, B4, B5, B6, B7, HS⟩, Hg⟩
  isplitl [B0 B1 B2 B3 B4 B5 B6 B7 HS]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS
  iexact Hg

/-- The body obligation of the second pallas_call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelRun.lean ====
/-
  The kernel program's run: its two pallas_calls one after the other on each core. Between them the core's unscoped
  buffers are held at named contents: at launch the memory; after the first call the degree-factor column and the scaled
  features at what that call's pipeline leaves (`Wa`); after the second the result array at what the second call's
  pipeline leaves (`Wb`). Each call is a region of the run: its arrays are taken out of the buffers at its entry and put
  back at its exit. The second call reads the scaled features through two windows, which hold that array half each.
-/
import proofs.«121199_j53403623358621_1_alg».proof.Proof.DegreeRegion
import proofs.«121199_j53403623358621_1_alg».proof.Proof.AggBody
import proofs.«121199_j53403623358621_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the calls -/

/-- The core's buffers at launch, read at the TensorCore's references. -/
abbrev Ve0 : (c : Dev nD) → (b : Ref sig .tc) → Buf (Elt F) ((c : Thread nD τ).loc b) := fun c b => Gen.V0 m c b

/-- After the first call: the degree-factor column and the scaled features at what its pipeline leaves. -/
def Wa (c : Dev nD) : Valuation τ sig (Elt F) :=
  Function.update (Function.update (Gen.V0 m c) main_v0_0 ((dat0 (Ve0 m) c).arrAt 2 cfg0.N)) main_v0_1 ((dat0 (Ve0 m) c).arrAt 3 cfg0.N)

abbrev Ve1 : (c : Dev nD) → (b : Ref sig .tc) → Buf (Elt F) ((c : Thread nD τ).loc b) := fun c b => Wa m c b

/-- After the second call: the result array at what its pipeline leaves. -/
def Wb (c : Dev nD) : Valuation τ sig (Elt F) :=
  Function.update (Wa m c) main_v1 ((dat1 (Ve1 m) c).arrAt 5 cfg1.N)

theorem ne_dev {r r' : Ref sig .tc} (h : r ≠ r') : (Proc.devRef .tc r : DevRef τ sig) ≠ Proc.devRef .tc r' :=
  StableHlo.devRef_ne_of_ne h

theorem Wa_v0_0 (c : Dev nD) : Wa m c main_v0_0 = (dat0 (Ve0 m) c).arrAt 2 cfg0.N := by
  unfold Wa
  rw [Function.update_of_ne (ne_dev (by decide : main_v0_0 ≠ main_v0_1)), Function.update_self]

theorem Wa_v0_1 (c : Dev nD) : Wa m c main_v0_1 = (dat0 (Ve0 m) c).arrAt 3 cfg0.N := by
  unfold Wa
  rw [Function.update_self]

theorem Wa_of (c : Dev nD) (r : Ref sig .tc) (h0 : r ≠ main_v0_0) (h1 : r ≠ main_v0_1) : Wa m c r = Gen.V0 m c r := by
  unfold Wa
  rw [Function.update_of_ne (ne_dev h1), Function.update_of_ne (ne_dev h0)]

theorem Wb_v1 (c : Dev nD) : Wb m c main_v1 = (dat1 (Ve1 m) c).arrAt 5 cfg1.N := by
  unfold Wb
  rw [Function.update_self]

theorem Wb_of (c : Dev nD) (r : Ref sig .tc) (h : r ≠ main_v1) : Wb m c r = Wa m c r := by
  unfold Wb
  rw [Function.update_of_ne (ne_dev h)]

/-- What the two calls leave, as the unknowns of the conditional frame. -/
def outs : Gen.Outs (F := F) := fun J r c => if J = 1 then Wa m c r else Wb m c r

theorem V1_eq (c : Dev nD) : Gen.V1 m (outs m) c = Wa m c := by
  show Function.update (Function.update (Gen.V0 m c) main_v0_0 (Wa m c main_v0_0)) main_v0_1 (Wa m c main_v0_1) = Wa m c
  rw [Wa_v0_0, Wa_v0_1]; rfl

theorem V2_eq (c : Dev nD) : Gen.V2 m (outs m) c = Wb m c := by
  show Function.update (Gen.V1 m (outs m) c) main_v1 (Wb m c main_v1) = Wb m c
  rw [V1_eq, Wb_v1]; rfl

/-! ## The first call's exit contents -/

theorem hF0 (c : Dev nD) (w : Fin cfg0.W) : (dat0 (Ve0 m) c).arrAt w cfg0.N = Ve1 m c (Pipeline.arrRef spec0 w) := by
  match w with
  | ⟨0, _⟩ => exact ((dat0 (Ve0 m) c).arrAt_in 0 rfl _).trans ((A_eq0 (Ve0 m) c 0).trans (Wa_of m c main_arg1 (by decide) (by decide)).symm)
  | ⟨1, _⟩ => exact ((dat0 (Ve0 m) c).arrAt_in 1 rfl _).trans ((A_eq0 (Ve0 m) c 1).trans (Wa_of m c main_arg0 (by decide) (by decide)).symm)
  | ⟨2, _⟩ => exact (Wa_v0_0 m c).symm
  | ⟨3, _⟩ => exact (Wa_v0_1 m c).symm

theorem hrest0 (c : Dev nD) : ∀ b, b ∉ Finset.univ.image (Pipeline.arrRef spec0) → Ve1 m c b = Ve0 m c b := fun b hb =>
  Wa_of m c b (fun e => hb (Finset.mem_image.mpr ⟨2, Finset.mem_univ _, e.symm⟩)) (fun e => hb (Finset.mem_image.mpr ⟨3, Finset.mem_univ _, e.symm⟩))

/-! ## The proof data family and what rides beside the buffers -/

abbrev adm : (p : Fin 2) → (pcfgs (F := F) p).Adm := fun p => (cfgs p).toPCfg_adm

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c

abbrev 𝒱₀ : Variants := Variants.none
abbrev L : GSem nD τ sig → Finset Unit := fun _ => ∅
abbrev lv : GSem nD τ sig → Unit → ℕ := fun _ _ => 0

/-- Beside the buffers through the whole run: the core's generator register at some state, and the core owing nothing. -/
abbrev R (c : Dev nD) : sProp 𝕄 := iprop((∃ r, prngReg c r) ∗ ∃ W, owes (c : Thread nD τ) (0 : CellTallies nD τ sig Unit) W)

/-! ## The first call as a region of the run -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Ve1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call's arrays: five buffers behind six windows -/

/-- The distinct buffers behind the second call's windows, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_v0_1) ↦{fullShare} V' main_v0_1)
          ∗ (((c : Thread nD τ).loc main_v0_0) ↦{fullShare} V' main_v0_0) ∗ (((c : Thread nD τ).loc main_arg2) ↦{fullShare} V' main_arg2)
          ∗ (((c : Thread nD τ).loc main_v1) ↦{fullShare} V' main_v1)) := by
  unfold Pipeline.arrBufs
  exact bigSep_eq_bigSepL_of_eq [main_arg1, main_v0_1, main_v0_0, main_arg2, main_v1] (by decide) (by decide) _

/-- The second call's windowed arrays, one by one: the scaled features' array appears twice, half its share each. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_v0_1) ↦{fullShare.left} G 1)
          ∗ (((c : Thread nD τ).loc main_v0_1) ↦{fullShare.right} G 2) ∗ (((c : Thread nD τ).loc main_v0_0) ↦{fullShare} G 3)
          ∗ (((c : Thread nD τ).loc main_arg2) ↦{fullShare} G 4) ∗ (((c : Thread nD τ).loc main_v1) ↦{fullShare} G 5)) := by
  unfold Dat.arrays
  rw [bigSep_W1, (arr_whole1 0).set_eq_univ, (arr_whole1 1).set_eq_univ, (arr_whole1 3).set_eq_univ,
    (arr_whole1 4).set_eq_univ, (arr_whole1 5).set_eq_univ]
  rfl

/-- The buffers after the second call, read at the TensorCore's references. -/
abbrev Veb : (c : Dev nD) → (b : Ref sig .tc) → Buf (Elt F) ((c : Thread nD τ).loc b) := fun c b => Wb m c b

/-- What the second call's pipeline leaves in each window's array is the exit contents: an input's array is as entered,
    the output's is the result. -/
theorem hF1 (c : Dev nD) (w : Fin cfg1.W) : (dat1 (Ve1 m) c).arrAt w cfg1.N = Veb m c (Pipeline.arrRef spec1 w) := by
  match w with
  | ⟨0, _⟩ => exact ((dat1 (Ve1 m) c).arrAt_in 0 rfl _).trans ((A_eq1 (Ve1 m) c 0).trans (Wb_of m c main_arg1 (by decide)).symm)
  | ⟨1, _⟩ => exact ((dat1 (Ve1 m) c).arrAt_in 1 rfl _).trans ((A_eq1 (Ve1 m) c 1).trans (Wb_of m c main_v0_1 (by decide)).symm)
  | ⟨2, _⟩ => exact ((dat1 (Ve1 m) c).arrAt_in 2 rfl _).trans ((A_eq1 (Ve1 m) c 2).trans (Wb_of m c main_v0_1 (by decide)).symm)
  | ⟨3, _⟩ => exact ((dat1 (Ve1 m) c).arrAt_in 3 rfl _).trans ((A_eq1 (Ve1 m) c 3).trans (Wb_of m c main_v0_0 (by decide)).symm)
  | ⟨4, _⟩ => exact ((dat1 (Ve1 m) c).arrAt_in 4 rfl _).trans ((A_eq1 (Ve1 m) c 4).trans (Wb_of m c main_arg2 (by decide)).symm)
  | ⟨5, _⟩ => exact (Wb_v1 m c).symm

set_option backward.isDefEq.respectTransparency.types false in
/-- ENTRY of the second call: the core's unscoped buffers are its windowed arrays at their entry contents — the scaled
    features' array split in two halves, one per window reading it — and the one buffer it does not touch. -/
theorem entry_arrays1 (c : Dev nD) :
    (unscopedBufs c (Ve1 m c) : sProp 𝕄)
      ⊢ iprop((dat1 (Ve1 m) c).arrays ((dat1 (Ve1 m) c).arrAt · 0)
          ∗ Pipeline.unscopedRest (Ix := Unit) (Name := ℕ) (U := UR sig nD τ) (Lvl := ℕ) spec1 c (Ve1 m c)) := by
  rw [Pipeline.unscopedBufs_split₀ (Pipeline.pin (pcfgs (F := F)) adm) 1 winFacts₀1.arr_unscoped c (Ve1 m c)]
  refine sep_mono ?_ .rfl
  show (Pipeline.arrBufs (Ix := Unit) (Name := ℕ) (U := UR sig nD τ) (Lvl := ℕ) spec1 c (Ve1 m c) : sProp 𝕄) ⊢ _
  rw [arrBufs1_eq, arrays1_eq]
  iintro ⟨H0, H1, H2, H3, H4⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  iexact H4

set_option backward.isDefEq.respectTransparency.types false in
/-- EXIT of the second call: its arrays at what its pipeline leaves — the two halves of the scaled features' array joined
    again — and the buffer it did not touch are the core's unscoped buffers at the exit contents. -/
theorem exit_arrays1 (c : Dev nD) :
    iprop((dat1 (Ve1 m) c).arrays ((dat1 (Ve1 m) c).arrAt · cfg1.N)
          ∗ Pipeline.unscopedRest (Ix := Unit) (Name := ℕ) (U := UR sig nD τ) (Lvl := ℕ) spec1 c (Ve1 m c))
      ⊢ (unscopedBufs c (Veb m c) : sProp 𝕄) := by
  rw [Pipeline.unscopedBufs_split₀ (Pipeline.pin (pcfgs (F := F)) adm) 1 winFacts₀1.arr_unscoped c (Veb m c)]
  refine sep_mono ?_ (Entails.of_eq ?_)
  · show _ ⊢ (Pipeline.arrBufs (Ix := Unit) (Name := ℕ) (U := UR sig nD τ) (Lvl := ℕ) spec1 c (Veb m c) : sProp 𝕄)
    rw [arrBufs1_eq, arrays1_eq, hF1 m c 0, hF1 m c 1, hF1 m c 2, hF1 m c 3, hF1 m c 4, hF1 m c 5]
    iintro ⟨H0, H1l, H1r, H2, H3, H4⟩
    isplitl [H0]; · iexact H0
    isplitl [H1l H1r]
    · iapply (pointsTo_share (PosShare.mem_left_op_right fullShare)).2
      isplitl [H1l]; · iexact H1l
      iexact H1r
    isplitl [H2]; · iexact H2
    isplitl [H3]; · iexact H3
    iexact H4
  · show (Pipeline.unscopedRest (Ix := Unit) (Name := ℕ) (U := UR sig nD τ) (Lvl := ℕ) spec1 c (Ve1 m c) : sProp 𝕄)
      = Pipeline.unscopedRest (Ix := Unit) (Name := ℕ) (U := UR sig nD τ) (Lvl := ℕ) spec1 c (Veb m c)
    rw [unscopedRest1_eq, unscopedRest1_eq, show Veb m c main_arg0 = Ve1 m c main_arg0 from Wb_of m c main_arg0 (by decide)]

/-! ## The second call as a region of the run -/

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (Wa m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := entry_arrays1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from hin1 (Ve1 m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Ve1 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N)
          ∗ Pipeline.unscopedRest (Ix := Unit) (Name := ℕ) (U := UR sig nD τ) (Lvl := ℕ) (Pipeline.pin (pcfgs (F := F)) adm 1).spec c (Ve1 m c))
        ⊢ (StableHlo.held (c : Thread nD τ) (Pipeline.ucRefs τ sig) (Wb m c) : sProp 𝕄) := by
      have h := exit_arrays1 m c
      rw [Pipeline.unscopedBufs_held] at h
      exact h
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- An unscoped TensorCore reference is among those the run's state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program on the TensorCores
    terminates, nothing faulting, and in every final state the result array holds what the second call's pipeline leaves
    (from entry contents that hold what the first call's pipeline leaves) and the three argument arrays are as launched. -/
theorem run_value : θ_run defs (onTc (τ := τ) (main (F := F))) ⟨m, fun _ => 0, ρ⟩ (fun r => ∀ c : Dev nD,
      r.2.mem ((c.tc : Thread nD τ).loc main_v1) = (dat1 (Ve1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Wb m c) ∗ ∃ r, prngReg c r))
    (hch := ⟨fun _ => .rfl, fun _ => .rfl, fun c => by
      show iprop(StableHlo.held (c : Thread nD τ) (Pipeline.ucRefs τ sig) (Wb m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c =>
      ⟨(h c _ (mem_uc main_v1 (by decide))).trans (Wb_v1 m c),
       (h c _ (mem_uc main_arg0 (by decide))).trans ((Wb_of m c main_arg0 (by decide)).trans (Wa_of m c main_arg0 (by decide) (by decide))),
       (h c _ (mem_uc main_arg1 (by decide))).trans ((Wb_of m c main_arg1 (by decide)).trans (Wa_of m c main_arg1 (by decide) (by decide))),
       (h c _ (mem_uc main_arg2 (by decide))).trans ((Wb_of m c main_arg2 (by decide)).trans (Wa_of m c main_arg2 (by decide) (by decide)))⟩)

/-- THE FRAME: the program runs to the end, nothing faulting, and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_value m ρ)

end Cert.KernelIdeal.Hand

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowNorm.lean ====
/-
  Dividing each row of a matrix by its Euclidean length, the length floored by a constant: a general fact read on the
  extended reals, independent of any program.

  For an M×N matrix Z and a floor e, entry (p, q) of the result is
      Z(p,q) / max( sqrt( Σ_k Z(p,k)·Z(p,k) ), e )                                            (`rowNorm`).
  * A kernel tile that squares Z entrywise, adds along the lanes from zero, makes the row sums a column, takes the square
    root, the maximum with the floor copied down the column, copies the column across the row and divides computes this at
    a tile entry (`tile_apply`).
  * The host's form — the squares reduced along axis 1 from a zero initial value, the sums made a column, the square root,
    the maximum with the floor splat, the column copied across the rows, the quotient — is the same function (`host_eq`).
  Both rest on one fact: over the row index p, the matrix index with the reduced coordinate k put back is (p, k)
  (`lift_row`), so either reduction is the sum over the row's entries.
-/
import Idealize.ShloMosaic.PureOps.Ideal.Laws
import Idealize.ShloMosaic.Lib.ValueIdx
import Idealize.ShloMosaic.Lib.Pipeline.Value
import Idealize.ShloMosaic.Lib.IdealHost
import proofs.«121199_j53403623358621_1_alg».proof.Proof.LibColumn

noncomputable section

namespace LibRowNorm

open Idealize.ShloMosaic Idealize.ShloMosaic.ValueIdx

/-- Entry (p, q) of a matrix whose rows are divided by their Euclidean length floored at `e`. -/
def rowNorm {M N : ℕ} (e : EReal) (Z : FVec Ideal ⟨2, ![M, N]⟩ .f32) : FVec Ideal ⟨2, ![M, N]⟩ .f32 :=
  fun i => Ideal.div (Z i) (max (Ideal.sqrt (∑ k : Fin N, Z (ix2 (i 0) k) * Z (ix2 (i 0) k))) e)

theorem rowNorm_apply {M N : ℕ} (e : EReal) (Z : FVec Ideal ⟨2, ![M, N]⟩ .f32) (p : Fin M) (q : Fin N) :
    rowNorm e Z (ix2 p q)
      = Ideal.div (Z (ix2 p q)) (max (Ideal.sqrt (∑ k : Fin N, Z (ix2 p k) * Z (ix2 p k))) e) := rfl

/-- Over the row index p, the index of the matrix with the reduced column coordinate k put back is (p, k). -/
theorem lift_row {M N : ℕ} (h : (⟨2, ![M, N]⟩ : Shape).Reduces [(1 : Fin 2)] ⟨1, ![M]⟩) (p : Fin M)
    (k : Fin ((⟨2, ![M, N]⟩ : Shape).size 1)) :
    h.lift (ix1 p) k = ix2 p (show Fin N from k) := by
  funext c
  apply Fin.ext
  show h.liftVal (ix1 p) k.val c = (ix2 p (show Fin N from k) c).val
  unfold Shape.Reduces.liftVal
  match c with
  | ⟨0, _⟩ => rfl
  | ⟨1, _⟩ => rfl

/-- The kernel's and the host's square root of an array, at an index: the ideal square root of the entry. -/
theorem sqrt_apply {s : Shape} {φ : FTy} (v : FVec Ideal s φ) (i : s.Idx) : sqrt v i = Ideal.sqrt (v i) := rfl
theorem hostSqrt_apply {s : Shape} {φ : FTy} (v : FVec Ideal s φ) (i : s.Idx) : Host.sqrt v i = Ideal.sqrt (v i) := rfl

/-- The squares of a row added along the lanes from zero: the sum over the row of the squared entries. -/
theorem lane_sum_sq {M N : ℕ} (Z : FVec Ideal ⟨2, ![M, N]⟩ .f32)
    (hr : (⟨2, ![M, N]⟩ : Shape).Reduces [(1 : Fin 2)] ⟨1, ![M]⟩) (hφ : FKind.Formats FTy.f32)
    (hacc : (0x00000000#32 : BitVec FTy.f32.bits) = FKind.add.neutral .f32 hφ) (p : Fin M) :
    multiReduction .add [(1 : Fin 2)] ⟨1, ![M]⟩ (mulf Z Z) 0x00000000#32 hr hφ hacc (ix1 p)
      = ∑ k : Fin N, Z (ix2 p k) * Z (ix2 p k) := by
  rw [Ideal.multiReduction_add_single]
  exact Finset.sum_congr rfl fun k _ => by rw [lift_row hr p k, mulf_apply]

/-- A kernel tile: square, add along the lanes, make the sums a column, take the root, floor it, copy the column across
    the row and divide — at a tile entry the row-normalised entry. -/
theorem tile_apply {M N : ℕ} (Z : FVec Ideal ⟨2, ![M, N]⟩ .f32) (w : BitVec 32)
    (hr : (⟨2, ![M, N]⟩ : Shape).Reduces [(1 : Fin 2)] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    divf Z (broadcastTo ⟨2, ![M, N]⟩
        (maximumf (sqrt (shapeCast ⟨2, ![M, 1]⟩
            (multiReduction .add [(1 : Fin 2)] ⟨1, ![M]⟩ (mulf Z Z) 0x00000000#32 hr hφ hacc) hc))
          (broadcast ⟨2, ![M, 1]⟩ (Scalar.ofBits (F := Ideal) .f32 w))) hb) (ix2 p q)
      = rowNorm (Ideal.ofBits .f32 w) Z (ix2 p q) := by
  rw [divf_apply, Cert.LibColumn.broadcastTo_a1_ab_apply, maximumf_apply, broadcast_apply, rowNorm_apply, sqrt_apply,
    Cert.LibColumn.shapeCast_a_a1_apply, lane_sum_sq]
  rfl

/-- A length-M vector laid as a column reads, at (p, 0), the vector's entry p. -/
theorem column_of_vector_apply {α : Type} {M : ℕ} (v : (⟨1, ![M]⟩ : Shape).Idx → α)
    (h1 : (⟨1, ![M]⟩ : Shape).BroadcastsInDim ⟨2, ![M, 1]⟩ ![0]) (p : Fin M) :
    broadcastInDim ⟨2, ![M, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if M = 1 then 0 else p.val
      split
      · have := p.isLt; omega
      · rfl)

/-- A column copied across N columns reads, at (p, q), the column's entry of row p. -/
theorem column_across_apply {α : Type} {M N : ℕ} (v : (⟨2, ![M, 1]⟩ : Shape).Idx → α)
    (h2 : (⟨2, ![M, 1]⟩ : Shape).BroadcastsInDim ⟨2, ![M, N]⟩ ![0, 1]) (p : Fin M) (q : Fin N) :
    broadcastInDim ⟨2, ![M, N]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if M = 1 then 0 else p.val
      split
      · have := p.isLt; omega
      · rfl
    | ⟨1, _⟩ => rfl)

/-- The host's form: the squares reduced along axis 1 from a zero initial value, the sums a column, the root, the
    maximum with the floor splat, the column copied across the rows, the quotient — the same function. -/
theorem host_eq {M N : ℕ} (Z : FVec Ideal ⟨2, ![M, N]⟩ .f32) (w : BitVec 32)
    (hrt : (⟨2, ![M, N]⟩ : Shape).ReducesTo [(1 : Fin 2)] ⟨1, ![M]⟩)
    (hr : (⟨2, ![M, N]⟩ : Shape).Reduces [(1 : Fin 2)] ⟨1, ![M]⟩) (hu : 0 < (⟨0, ![]⟩ : Shape).numel)
    (h1 : (⟨1, ![M]⟩ : Shape).BroadcastsInDim ⟨2, ![M, 1]⟩ ![0])
    (h0 : (⟨0, ![]⟩ : Shape).BroadcastsInDim ⟨2, ![M, 1]⟩ ![])
    (h2 : (⟨2, ![M, 1]⟩ : Shape).BroadcastsInDim ⟨2, ![M, N]⟩ ![0, 1]) :
    Host.divf Z (broadcastInDim ⟨2, ![M, N]⟩ ![0, 1] h2
        (maximumf (Host.sqrt (broadcastInDim ⟨2, ![M, 1]⟩ ![0] h1
            (Host.reduceAdd (mulf Z Z) (constant (F := Ideal) (⟨0, ![]⟩ : Shape) .f32 0x00000000#32) hrt hu)))
          (broadcastInDim ⟨2, ![M, 1]⟩ ![] h0 (constant (F := Ideal) (⟨0, ![]⟩ : Shape) .f32 w))))
      = rowNorm (Ideal.ofBits .f32 w) Z := by
  funext i
  obtain ⟨p, q, rfl⟩ : ∃ (p : Fin M) (q : Fin N), i = ix2 p q := ⟨i 0, i 1, eq_ix2 i⟩
  rw [hostDivf_apply, column_across_apply, maximumf_apply, rowNorm_apply,
    broadcastInDim_scalar_apply h0, constant_apply, hostSqrt_apply, column_of_vector_apply, hostReduceAdd_apply,
    Ideal.hostReduceAdd_single hrt hr, constant_apply, Ideal.ofBits_zero_f32, zero_add]
  refine congrArg (fun s => Ideal.div _ (max (Ideal.sqrt s) _)) (Finset.sum_congr rfl fun k _ => ?_)
  rw [lift_row hr p k, mulf_apply]

end LibRowNorm

end
-- ==== Proof.Spec.lean ====
/-
  What the two programs compute, as functions of the three input arrays read on the extended reals: the features X
  (16384 × 256), the adjacency A (16384 × 16384) and the weights W (256 × 256).

  Both normalise the adjacency with self loops by the inverse square roots of its row sums (the degrees), aggregate the
  features with it, apply the weights, clamp at zero, and divide each row by its Euclidean length floored at a small
  constant. They differ in how the aggregation is arranged:
  * the kernel scales the feature rows first, `S(k, c) = s(k) · X(k, c)` with `s(i) = rsqrt(Σ_j A(i, j) + 1)`, and computes
    `s(i) · (S(i, c) + Σ_k A(i, k) · S(k, c))`                                                         (`aggK`);
  * the reference forms the normalised matrix `(r(i) · (A(i, k) + [i = k])) · r(k)` with
    `r(i) = 1 / sqrt(Σ_j (A(i, j) + [i = j]))` and multiplies it with X                                 (`aggR`).
  The tail after the aggregation is the same function of the aggregated features (`tail`).
-/
import Idealize.ShloMosaic.PureOps.Ideal.Laws
import Idealize.ShloMosaic.Lib.ValueIdx
import proofs.«121199_j53403623358621_1_alg».proof.Proof.LibRowNorm

noncomputable section

namespace Cert.Spec

open Idealize.ShloMosaic Idealize.ShloMosaic.ValueIdx

abbrev SX : Shape := ⟨2, ![16384, 256]⟩
abbrev SA : Shape := ⟨2, ![16384, 16384]⟩
abbrev SW : Shape := ⟨2, ![256, 256]⟩
abbrev SD : Shape := ⟨2, ![16384, 1]⟩

/-- The word of the floor under the row lengths. -/
abbrev floorW : BitVec 32 := 0x2B8CBCCC#32

/-- The linear layer clamped at zero: entry (i, o) is max(Σ_c Y(i, c) · W(c, o), 0). -/
def lin (Y : FVec Ideal SX .f32) (W : FVec Ideal SW .f32) : FVec Ideal SX .f32 :=
  fun j => max (∑ c : Fin 256, Y (ix2 (j 0) c) * W (ix2 c (j 1))) 0

/-- What both programs do with the aggregated features `Y`: the linear layer, the clamp, each row divided by its
    floored Euclidean length. -/
def tail (Y : FVec Ideal SX .f32) (W : FVec Ideal SW .f32) : FVec Ideal SX .f32 :=
  LibRowNorm.rowNorm (Ideal.ofBits .f32 floorW) (lin Y W)

/-! ## The kernel's arrangement -/

/-- A row's degree as the kernel forms it: the row sum, plus one. -/
def degK (A : FVec Ideal SA .f32) (i : Fin 16384) : EReal := (∑ j : Fin 16384, A (ix2 i j)) + 1

/-- The kernel's degree factor. -/
def dinvK (A : FVec Ideal SA .f32) (i : Fin 16384) : EReal := Ideal.rsqrt (degK A i)

/-- The degree factors as the column the first pallas_call writes. -/
def dinvCol (A : FVec Ideal SA .f32) : FVec Ideal SD .f32 := fun j => dinvK A (j 0)

/-- The scaled features the first pallas_call writes. -/
def scaled (X : FVec Ideal SX .f32) (A : FVec Ideal SA .f32) : FVec Ideal SX .f32 := fun j => dinvK A (j 0) * X j

/-- What the second pallas_call aggregates from a column of factors `D`, scaled features `S` and the adjacency. -/
def aggOf (D : FVec Ideal SD .f32) (S : FVec Ideal SX .f32) (A : FVec Ideal SA .f32) : FVec Ideal SX .f32 :=
  fun j => D (ix2 (j 0) (0 : Fin 1)) * (S j + ∑ k : Fin 16384, A (ix2 (j 0) k) * S (ix2 k (j 1)))

/-- The kernel's aggregated features. -/
def aggK (X : FVec Ideal SX .f32) (A : FVec Ideal SA .f32) : FVec Ideal SX .f32 := aggOf (dinvCol A) (scaled X A) A

/-! ## The reference's arrangement -/

/-- The identity matrix's entry. -/
def eye (i k : Fin 16384) : EReal := if i = k then 1 else 0

/-- A row's degree as the reference forms it: the row sum of the adjacency with self loops. -/
def degR (A : FVec Ideal SA .f32) (i : Fin 16384) : EReal := ∑ j : Fin 16384, (A (ix2 i j) + eye i j)

/-- The reference's degree factor. -/
def dinvR (A : FVec Ideal SA .f32) (i : Fin 16384) : EReal := Ideal.div 1 (Ideal.sqrt (degR A i))

/-- The reference's aggregated features. -/
def aggR (X : FVec Ideal SX .f32) (A : FVec Ideal SA .f32) : FVec Ideal SX .f32 :=
  fun j => ∑ k : Fin 16384, ((dinvR A (j 0) * (A (ix2 (j 0) k) + eye (j 0) k)) * dinvR A k) * X (ix2 k (j 1))

end Cert.Spec

end
-- ==== Proof.KernelValue0.lean ====
/-
  What the first pallas_call leaves in its two output arrays, as functions of the whole adjacency and feature arrays
  read on the extended reals.

  At grid point t the body sees rows 128·t … 128·t + 127 of the adjacency A and of the features X. For a row p of that
  block it adds up the row's adjacency entries, adds one, and takes the reciprocal square root: the degree factor
  s(128·t + p) = rsqrt(Σ_k A(128·t + p, k) + 1). It writes the factors as a column and the feature rows each multiplied by
  its factor. The blocks of the 128 points tile the 16384 rows, so the column array ends holding s(i) at row i and the
  scaled array s(i) · X(i, q) at (i, q).
-/
import proofs.«121199_j53403623358621_1_alg».proof.Proof.DegreeRegion
import proofs.«121199_j53403623358621_1_alg».proof.Proof.Spec
import proofs.«121199_j53403623358621_1_alg».proof.Proof.LibColumn
import proofs.«121199_j53403623358621_1_alg».proof.Proof.LibRowNorm
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

/-! ## The body's two payloads at an entry of the block -/

theorem zeroOffsets : (![0, 0] : Fin 2 → Nat) = fun _ => 0 := funext fun a => by fin_cases a <;> rfl

/-- The reciprocal square root of an array, at an index: the ideal reciprocal square root of the entry. -/
theorem rsqrt_apply {s : Shape} {φ : FTy} (v : FVec Ideal s φ) (i : s.Idx) : rsqrt v i = Ideal.rsqrt (v i) := rfl

/-- A matrix's rows added along the lanes from zero: at row p the sum of the row's entries. -/
theorem lane_sum {M N : ℕ} (Z : FVec Ideal ⟨2, ![M, N]⟩ .f32)
    (hr : (⟨2, ![M, N]⟩ : Shape).Reduces [(1 : Fin 2)] ⟨1, ![M]⟩) (hφ : FKind.Formats FTy.f32)
    (hacc : (0x00000000#32 : BitVec FTy.f32.bits) = FKind.add.neutral .f32 hφ) (p : Fin M) :
    multiReduction .add [(1 : Fin 2)] ⟨1, ![M]⟩ Z 0x00000000#32 hr hφ hacc (ix1 p) = ∑ k : Fin N, Z (ix2 p k) := by
  rw [Ideal.multiReduction_add_single]
  exact Finset.sum_congr rfl fun k _ => by rw [LibRowNorm.lift_row hr p k]

/-- The degree factor the body forms for row p of an adjacency block: the row sum, plus one, reciprocal square root. -/
theorem degPayload_apply (a : FVec Ideal S128x16384 .f32) (p : Fin 128) (u : Fin 1) :
    k0_pay1 (F := Ideal) a (ix2 p u) = Ideal.rsqrt ((∑ k : Fin 16384, a (ix2 p k)) + 1) := by
  unfold k0_pay1
  rw [rsqrt_apply, addf_apply, broadcast_apply, Cert.LibColumn.shapeCast_a_a1_apply]
  refine congrArg Ideal.rsqrt (congrArg₂ (· + ·) ?_ ?_)
  · exact lane_sum a reduces_S128x16384_S128 _ _ p
  · exact Ideal.ofBits_one_f32

/-- The scaled feature entry the body forms at (p, q): the row's degree factor times the feature entry. -/
theorem scaledPayload_apply (a : FVec Ideal S128x16384 .f32) (x : FVec Ideal S128x256 .f32) (p : Fin 128) (q : Fin 256) :
    k0_pay2 (F := Ideal) a x (ix2 p q) = Ideal.rsqrt ((∑ k : Fin 16384, a (ix2 p k)) + 1) * x (ix2 p q) := by
  unfold k0_pay2
  rw [mulf_apply, Cert.LibColumn.broadcastTo_a1_ab_apply, degPayload_apply]

/-! ## From the blocks to the arrays -/

variable (V : (c : Dev nD) → (b : Ref sig .tc) → Buf (Elt Ideal) ((c : Thread nD τ).loc b))

/-- The printed index maps over the grid: at point t every window's block is row block t, column block 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, k) of the adjacency block at point t is the adjacency's entry (128·t + p, k). -/
theorem adjBlock_apply (c : Dev nD) (t : Fin cfg0.N) (p : Fin 128) (k : Fin 16384) (i : Cert.Spec.SA.Idx)
    (h0 : (i 0).val = t.val * 128 + p.val) (h1 : (i 1).val = k.val) :
    (iblk0 (F := Ideal) V c 0 t : S128x16384.Idx → EReal) (ix2 p k) = (V c main_arg1 : Cert.Spec.SA.Idx → EReal) i := by
  obtain ⟨e0, e1, -⟩ := blockIndex0 t
  show (V c main_arg1 : Cert.Spec.SA.Idx → EReal) (((cfg0.win 0).blk t).view.emb (ix2 p k)) = _
  refine congrArg _ (funext fun a => Fin.ext ?_)
  match a with
  | ⟨0, _⟩ => show win0_0.index t (0 : Fin 2) * 128 + 1 * p.val = (i 0).val; omega
  | ⟨1, _⟩ => show win0_0.index t (1 : Fin 2) * 16384 + 1 * k.val = (i 1).val; omega

/-- Entry (p, q) of the feature block at point t is the features' entry (128·t + p, q). -/
theorem featBlock_apply (c : Dev nD) (t : Fin cfg0.N) (p : Fin 128) (q : Fin 256) (i : Cert.Spec.SX.Idx)
    (h0 : (i 0).val = t.val * 128 + p.val) (h1 : (i 1).val = q.val) :
    (iblk0 (F := Ideal) V c 1 t : S128x256.Idx → EReal) (ix2 p q) = (V c main_arg0 : Cert.Spec.SX.Idx → EReal) i := by
  obtain ⟨-, -, e0, e1, -⟩ := blockIndex0 t
  show (V c main_arg0 : Cert.Spec.SX.Idx → EReal) (((cfg0.win 1).blk t).view.emb (ix2 p q)) = _
  refine congrArg _ (funext fun a => Fin.ext ?_)
  match a with
  | ⟨0, _⟩ => show win0_1.index t (0 : Fin 2) * 128 + 1 * p.val = (i 0).val; omega
  | ⟨1, _⟩ => show win0_1.index t (1 : Fin 2) * 256 + 1 * q.val = (i 1).val; omega

/-- The column of degree factors at an index: the reciprocal square root of the row's sum plus one. -/
theorem dinvCol_apply (A : FVec Ideal Cert.Spec.SA .f32) (i : Cert.Spec.SD.Idx) :
    Cert.Spec.dinvCol A i = Ideal.rsqrt ((∑ k : Fin 16384, A (ix2 (i 0) k)) + 1) := rfl

/-- The scaled features at an index: the row's degree factor times the feature entry. -/
theorem scaled_apply (X : FVec Ideal Cert.Spec.SX .f32) (A : FVec Ideal Cert.Spec.SA .f32) (i : Cert.Spec.SX.Idx) :
    Cert.Spec.scaled X A i = Ideal.rsqrt ((∑ k : Fin 16384, A (ix2 (i 0) k)) + 1) * X i := rfl

/-- Row p of a block of 128 adjacency rows starting at row r has the row sum of row r + p of the whole adjacency. -/
theorem rowSum_eq (a : FVec Ideal S128x16384 .f32) (A : FVec Ideal Cert.Spec.SA .f32) (r : ℕ)
    (ha : ∀ (p : Fin 128) (k : Fin 16384) (i : Cert.Spec.SA.Idx), (i 0).val = r + p.val → (i 1).val = k.val → a (ix2 p k) = A i)
    (p : Fin 128) (n : Fin 16384) (hn : n.val = r + p.val) :
    (∑ k : Fin 16384, a (ix2 p k)) = ∑ k : Fin 16384, A (ix2 n k) :=
  Finset.sum_congr rfl fun k _ => ha p k _ hn rfl

/-- A block a of 128 adjacency rows starting at row r: the column of factors the body forms from it, at row p of the
    block, is the degree factor of row r + p of the whole adjacency. -/
theorem degBlock_eq (a : FVec Ideal S128x16384 .f32) (A : FVec Ideal Cert.Spec.SA .f32) (r : ℕ)
    (ha : ∀ (p : Fin 128) (k : Fin 16384) (i : Cert.Spec.SA.Idx), (i 0).val = r + p.val → (i 1).val = k.val → a (ix2 p k) = A i)
    (j : S128x1.Idx) (i : Cert.Spec.SD.Idx) (hi : (i 0).val = r + (j 0).val) :
    k0_pay1 (F := Ideal) a j = Cert.Spec.dinvCol A i := by
  obtain ⟨p, u, rfl⟩ : ∃ (p : Fin 128) (u : Fin 1), j = ix2 p u := ⟨j 0, j 1, eq_ix2 j⟩
  rw [degPayload_apply, dinvCol_apply, rowSum_eq a A r ha p (i 0) hi]

/-- The same for the scaled features: at (p, q) of the block, the factor of row r + p times the feature entry. -/
theorem scaledBlock_eq (a : FVec Ideal S128x16384 .f32) (x : FVec Ideal S128x256 .f32)
    (A : FVec Ideal Cert.Spec.SA .f32) (X : FVec Ideal Cert.Spec.SX .f32) (r : ℕ)
    (ha : ∀ (p : Fin 128) (k : Fin 16384) (i : Cert.Spec.SA.Idx), (i 0).val = r + p.val → (i 1).val = k.val → a (ix2 p k) = A i)
    (hx : ∀ (p : Fin 128) (q : Fin 256) (i : Cert.Spec.SX.Idx), (i 0).val = r + p.val → (i 1).val = q.val → x (ix2 p q) = X i)
    (j : S128x256.Idx) (i : Cert.Spec.SX.Idx) (hi0 : (i 0).val = r + (j 0).val) (hi1 : (i 1).val = (j 1).val) :
    k0_pay2 (F := Ideal) a x j = Cert.Spec.scaled X A i := by
  obtain ⟨p, q, rfl⟩ : ∃ (p : Fin 128) (q : Fin 256), j = ix2 p q := ⟨j 0, j 1, eq_ix2 j⟩
  rw [scaledPayload_apply, hx p q i hi0 hi1, scaled_apply, rowSum_eq a A r ha p (i 0) hi0]

/-- What point t writes back to the column of factors is block t of the whole column of degree factors. -/
theorem flushedDeg (c : Dev nD) (t : Fin cfg0.N) :
    (dat0 (F := Ideal) V c).flushed 2 t
      = ((cfg0.win 2).blk t).view.read (Elt Ideal) (Cert.Spec.dinvCol (V c main_arg1)) := by
  have key : ∀ G : Cert.Spec.SD.Idx → EReal, G = Cert.Spec.dinvCol (V c main_arg1) →
      (dat0 (F := Ideal) V c).flushed 2 t = ((cfg0.win 2).blk t).view.read (Elt Ideal) G := by
    intro G hG
    show (cfg0.win 2).cut (grid0.coords t) ((dat0 (F := Ideal) V c).after 2 t) = _
    rw [after0_2]
    unfold degOut
    rw [View.canon_unit_zero zeroOffsets]
    simp only [View.ld_unit_zero (S := S128x16384) zeroOffsets]
    obtain ⟨-, -, -, -, e0, e1, -⟩ := blockIndex0 t
    funext j
    have hrow : ((((cfg0.win 2).blk t).view.emb j) 0).val
        = t.val * 128 + (((cfg0.win 2).xinj (grid0.coords t) j) 0).val := by
      show win0_2.index t (0 : Fin 2) * 128 + 1 * (j 0).val = t.val * 128 + (j 0).val
      omega
    have h := degBlock_eq (iblk0 V c 0 t) (V c main_arg1) (t.val * 128)
      (fun p k i h0 h1 => adjBlock_apply V c t p k i h0 h1) ((cfg0.win 2).xinj (grid0.coords t) j)
      (((cfg0.win 2).blk t).view.emb j) hrow
    rw [← hG] at h
    exact h
  exact key _ rfl

/-- What point t writes back to the scaled features is block t of the whole array of scaled features. -/
theorem flushedScaled (c : Dev nD) (t : Fin cfg0.N) :
    (dat0 (F := Ideal) V c).flushed 3 t
      = ((cfg0.win 3).blk t).view.read (Elt Ideal) (Cert.Spec.scaled (V c main_arg0) (V c main_arg1)) := by
  have key : ∀ G : Cert.Spec.SX.Idx → EReal, G = Cert.Spec.scaled (V c main_arg0) (V c main_arg1) →
      (dat0 (F := Ideal) V c).flushed 3 t = ((cfg0.win 3).blk t).view.read (Elt Ideal) G := by
    intro G hG
    show (cfg0.win 3).cut (grid0.coords t) ((dat0 (F := Ideal) V c).after 3 t) = _
    rw [after0_3]
    unfold scaledOut
    rw [View.canon_unit_zero zeroOffsets]
    simp only [View.ld_unit_zero (S := S128x16384) zeroOffsets, View.ld_unit_zero (S := S128x256) zeroOffsets]
    obtain ⟨-, -, -, -, -, -, e0, e1⟩ := blockIndex0 t
    funext j
    have hrow : ((((cfg0.win 3).blk t).view.emb j) 0).val
        = t.val * 128 + (((cfg0.win 3).xinj (grid0.coords t) j) 0).val := by
      show win0_3.index t (0 : Fin 2) * 128 + 1 * (j 0).val = t.val * 128 + (j 0).val
      omega
    have hcol : ((((cfg0.win 3).blk t).view.emb j) 1).val = (((cfg0.win 3).xinj (grid0.coords t) j) 1).val := by
      show win0_3.index t (1 : Fin 2) * 256 + 1 * (j 1).val = (j 1).val
      omega
    have h := scaledBlock_eq (iblk0 V c 0 t) (iblk0 V c 1 t) (V c main_arg1) (V c main_arg0) (t.val * 128)
      (fun p k i h0 h1 => adjBlock_apply V c t p k i h0 h1) (fun p q i h0 h1 => featBlock_apply V c t p q i h0 h1)
      ((cfg0.win 3).xinj (grid0.coords t) j) (((cfg0.win 3).blk t).view.emb j) hrow hcol
    rw [← hG] at h
    exact h
  exact key _ rfl

/-- An index of the column array is in point t's block iff each coordinate is in the block's range on its axis. -/
theorem mem_degBlk (t : Fin cfg0.N) (i : S16384x1.Idx) :
    i ∈ ((cfg0.win 2).blk t).view.set
      ↔ ∀ a : Fin 2, win0_2.index t a * S128x1.size a ≤ (i a).val ∧ (i a).val < win0_2.index t a * S128x1.size a + S128x1.size a := by
  show i ∈ ((View.whole main_v0_0).slice (win0_2.rect t)).set ↔ _
  rw [View.set_slice_whole, Rect.mem_set_unit]
  exact Iff.rfl

/-- An index of the scaled array is in point t's block iff each coordinate is in the block's range on its axis. -/
theorem mem_scaledBlk (t : Fin cfg0.N) (i : S16384x256.Idx) :
    i ∈ ((cfg0.win 3).blk t).view.set
      ↔ ∀ a : Fin 2, win0_3.index t a * S128x256.size a ≤ (i a).val ∧ (i a).val < win0_3.index t a * S128x256.size a + S128x256.size a := by
  show i ∈ ((View.whole main_v0_1).slice (win0_3.rect t)).set ↔ _
  rw [View.set_slice_whole, Rect.mem_set_unit]
  exact Iff.rfl

/-- The point whose blocks hold row r of the arrays: r / 128. -/
theorem pointOfRow (r : ℕ) (hr : r < 16384) : ∃ t : Fin cfg0.N, t.val = r / 128 :=
  ⟨⟨r / 128, by rw [show cfg0.N = 128 from N_0]; omega⟩, rfl⟩

/-- Every row of the column of factors is in some point's block. -/
theorem coverDegArr (i : S16384x1.Idx) :
    ∃ t : Fin cfg0.N, (cfg0.win 2).flush t = true ∧ i ∈ ((cfg0.win 2).blk t).view.set := by
  have hi0 : (i 0).val < 16384 := (i 0).isLt
  have hi1 : (i 1).val < 1 := (i 1).isLt
  obtain ⟨t, ht⟩ := pointOfRow (i 0).val hi0
  obtain ⟨-, -, -, -, e0, e1, -⟩ := blockIndex0 t
  refine ⟨t, flush0_2 t, ?_⟩
  rw [mem_degBlk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- Every entry of the scaled features is in some point's block. -/
theorem coverScaledArr (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  obtain ⟨t, ht⟩ := pointOfRow (i 0).val hi0
  obtain ⟨-, -, -, -, -, -, e0, e1⟩ := blockIndex0 t
  refine ⟨t, flush0_3 t, ?_⟩
  rw [mem_scaledBlk]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 256 ≤ (i 1).val ∧ (i 1).val < win0_3.index t (1 : Fin 2) * 256 + 256; omega

/-- After the first pallas_call the column array holds the degree factor of every row of the adjacency. -/
theorem final0_deg (c : Dev nD) :
    ((dat0 (F := Ideal) V c).arrAt 2 cfg0.N : Cert.Spec.SD.Idx → EReal) = Cert.Spec.dinvCol (V c main_arg1) :=
  (dat0 (F := Ideal) V c).arrAt_eq_of_cover 2 (Cert.Spec.dinvCol (V c main_arg1)) (fun t _ => flushedDeg V c t) coverDegArr

/-- After the first pallas_call the scaled array holds every feature row times its row's degree factor. -/
theorem final0_scaled (c : Dev nD) :
    ((dat0 (F := Ideal) V c).arrAt 3 cfg0.N : Cert.Spec.SX.Idx → EReal) = Cert.Spec.scaled (V c main_arg0) (V c main_arg1) :=
  (dat0 (F := Ideal) V c).arrAt_eq_of_cover 3 (Cert.Spec.scaled (V c main_arg0) (V c main_arg1))
    (fun t _ => flushedScaled V c t) coverScaledArr

end Cert.KernelIdeal.Hand

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.KernelValue1.lean ====
/-
  What the second pallas_call leaves in its output array, as one function of its input arrays, read on the extended
  reals.

  On the grid of 16 × 16 points (row block i, column block k) the accumulator after point (i, k) holds, at (p, q), the
  scaled features S(1024·i + p, q) plus the sum over the column blocks k' ≤ k and the 1024 columns kk of each of
  A(1024·i + p, 1024·k' + kk) · S(1024·k' + kk, q). At k = 15 the blocked double sum is the sum over all 16384 columns:
  addition on the extended reals is commutative and associative, and a pair (block, column in the block) is a column.
  The result block stored then multiplies the accumulated rows by the rows' degree factors, applies the weights, clamps
  at zero and divides each row by its floored Euclidean length: entry (1024·i + p, q) of the tail of the aggregated
  features. The output's blocks are written back only at the last column block of each row block, they tile the array,
  and so the array ends holding that function everywhere.
-/
import proofs.«121199_j53403623358621_1_alg».proof.Proof.AggRegion
import proofs.«121199_j53403623358621_1_alg».proof.Proof.Spec
import proofs.«121199_j53403623358621_1_alg».proof.Proof.LibColumn
import proofs.«121199_j53403623358621_1_alg».proof.Proof.LibPlainMatmul
import proofs.«121199_j53403623358621_1_alg».proof.Proof.LibRowNorm
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The payloads at an index -/

/-- The two dot records the kernel prints are the plain products. -/
theorem dotA_eq : dot_S1024x1024_S1024x256_S1024x256_1_0_0_1_n_n = DotDims.plain 1024 1024 256 := rfl
theorem dotW_eq : dot_S1024x256_S256x256_S1024x256_1_0_0_1_n_n = DotDims.plain 1024 256 256 := rfl

/-- The copy of the row block's scaled features is the block. -/
theorem pay1_eq (v : FVec Ideal S1024x256 .f32) : k1_pay1 (F := Ideal) v = v := by
  show shapeCast S1024x256 (shapeCast S1024x256 v shapeCasts_S1024x256_S1024x256) shapeCasts_S1024x256_S1024x256 = v
  rw [shapeCast_self, shapeCast_self]

/-- One accumulation step at an entry: what was there plus the row of the adjacency block against the column of the
    scaled features' block. -/
theorem pay2_apply (a : FVec Ideal S1024x1024 .f32) (s prev : FVec Ideal S1024x256 .f32) (p : Fin 1024) (q : Fin 256) :
    k1_pay2 (F := Ideal) a s prev (ix2 p q) = prev (ix2 p q) + ∑ kk : Fin 1024, a (ix2 p kk) * s (ix2 kk q) := by
  show shapeCast S1024x256 (addf prev (matmul (F := Ideal) dot_S1024x1024_S1024x256_S1024x256_1_0_0_1_n_n none
      (truncf (F := Ideal) .bf16 a bitsLt_bf16_f32)
      (truncf (F := Ideal) .bf16 (shapeCast S1024x256 s shapeCasts_S1024x256_S1024x256) bitsLt_bf16_f32)
      (constant (F := Ideal) S1024x256 .f32 0x00000000#32))) shapeCasts_S1024x256_S1024x256 (ix2 p q) = _
  rw [shapeCast_self, shapeCast_self, addf_apply, dotA_eq]
  refine congrArg (fun x => prev (ix2 p q) + x) ?_
  exact LibPlainMatmul.matmul_plain_zero_apply none _ _ p q

/-- The clamped linear layer of a block of rows scaled by their factors, as the stored block's numerator. -/
def blockLin (d : FVec Ideal S1024x1 .f32) (acc : FVec Ideal S1024x256 .f32) (w : FVec Ideal S256x256 .f32) :
    FVec Ideal S1024x256 .f32 :=
  fun j => max (∑ cc : Fin 256, (d (ix2 (j 0) (0 : Fin 1)) * acc (ix2 (j 0) cc)) * w (ix2 cc (j 1))) 0

theorem blockLin_apply (d : FVec Ideal S1024x1 .f32) (acc : FVec Ideal S1024x256 .f32) (w : FVec Ideal S256x256 .f32)
    (p : Fin 1024) (q : Fin 256) :
    blockLin d acc w (ix2 p q) = max (∑ cc : Fin 256, (d (ix2 p (0 : Fin 1)) * acc (ix2 p cc)) * w (ix2 cc q)) 0 := rfl

/-- The clamped product with the weights of the accumulated rows scaled by their degree factors, as the body forms it. -/
theorem lin_eq (d : FVec Ideal S1024x1 .f32) (acc : FVec Ideal S1024x256 .f32) (w : FVec Ideal S256x256 .f32) :
    maximumf (matmul (F := Ideal) dot_S1024x256_S256x256_S1024x256_1_0_0_1_n_n none
        (truncf (F := Ideal) .bf16 (mulf (broadcastTo S1024x256 (shapeCast S1024x1 d shapeCasts_S1024x1_S1024x1)
          broadcasts_S1024x1_S1024x256) acc) bitsLt_bf16_f32)
        (truncf (F := Ideal) .bf16 w bitsLt_bf16_f32) (constant (F := Ideal) S1024x256 .f32 0x00000000#32))
      (broadcast S1024x256 (Scalar.ofBits (F := Ideal) .f32 0x00000000#32))
      = blockLin d acc w := by
  funext j
  obtain ⟨p, q, rfl⟩ : ∃ (p : Fin 1024) (q : Fin 256), j = ix2 p q := ⟨j 0, j 1, eq_ix2 j⟩
  rw [maximumf_apply, broadcast_apply, blockLin_apply, dotW_eq, LibPlainMatmul.matmul_plain_zero_apply]
  refine congrArg₂ max (Finset.sum_congr rfl fun cc _ => ?_) Ideal.ofBits_zero_f32
  rw [truncf_apply, truncf_apply, mulf_apply, Cert.LibColumn.broadcastTo_a1_ab_apply, shapeCast_self]

/-- The stored block at an entry: the clamped linear layer's row divided by its floored Euclidean length. -/
theorem pay3_apply (d : FVec Ideal S1024x1 .f32) (acc : FVec Ideal S1024x256 .f32) (w : FVec Ideal S256x256 .f32)
    (p : Fin 1024) (q : Fin 256) :
    k1_pay3 (F := Ideal) d acc w (ix2 p q)
      = LibRowNorm.rowNorm (Ideal.ofBits .f32 Cert.Spec.floorW) (blockLin d acc w) (ix2 p q) := by
  rw [← lin_eq]
  exact LibRowNorm.tile_apply _ 0x2B8CBCCC#32 reduces_S1024x256_S1024 (.inl rfl) rfl shapeCasts_S1024_S1024x1
    broadcasts_S1024x1_S1024x256 p q

/-! ## The arrays the region reads, and its blocks read off them -/

variable (V : (c : Dev nD) → (b : Ref sig .tc) → Buf (Elt Ideal) ((c : Thread nD τ).loc b)) (c : Dev nD)

/-- The adjacency, the scaled features, the degree factors' column and the weights, as the region finds them. -/
abbrev arrA : FVec Ideal Cert.Spec.SA .f32 := V c main_arg1
abbrev arrS : FVec Ideal Cert.Spec.SX .f32 := V c main_v0_1
abbrev arrD : FVec Ideal Cert.Spec.SD .f32 := V c main_v0_0
abbrev arrW : FVec Ideal Cert.Spec.SW .f32 := V c main_arg2

/-- Coordinate `x` of block `n` of sixteen blocks of 1024. -/
def inBlock (n : ℕ) (hn : n < 16) (x : Fin 1024) : Fin 16384 := ⟨n * 1024 + x.val, by have := x.isLt; omega⟩

theorem inBlock_val (n : ℕ) (hn : n < 16) (x : Fin 1024) : (inBlock n hn x).val = n * 1024 + x.val := rfl

theorem pt_lt (t : Fin cfg1.N) : t.val < 256 := lt_of_lt_of_eq t.isLt N_1
theorem pt_div_lt (t : Fin cfg1.N) : t.val / 16 < 16 := by have := pt_lt t; omega
theorem pt_mod_lt (t : Fin cfg1.N) : t.val % 16 < 16 := Nat.mod_lt _ (by decide)

/-- The printed index maps over the grid: point `t` is row block `t / 16`, column block `t % 16`. -/
theorem idx_facts1 : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0
    ∧ win1_4.index t (0 : Fin 2) = 0 ∧ win1_4.index t (1 : Fin 2) = 0
    ∧ win1_5.index t (0 : Fin 2) = t.val / 16 ∧ win1_5.index t (1 : Fin 2) = 0 :=
  (by decide +kernel : ∀ t : Fin grid1.N, _)

/-- The adjacency block at point `t`: rows of row block `t / 16`, columns of column block `t % 16`. -/
theorem readA (t : Fin cfg1.N) (p kk : Fin 1024) :
    iblk1 V c 0 t (ix2 p kk)
      = arrA V c (ix2 (inBlock (t.val / 16) (pt_div_lt t) p) (inBlock (t.val % 16) (pt_mod_lt t) kk)) := by
  obtain ⟨e0, e1, -⟩ := idx_facts1 t
  show V c main_arg1 (((cfg1.win 0).blk t).view.emb (ix2 p kk)) = V c main_arg1 _
  refine congrArg (V c main_arg1) (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 1024 + 1 * kk.val = t.val % 16 * 1024 + kk.val; rw [e1]; omega

/-- The scaled features' block the product reads at point `t`: rows of row block `t % 16`. -/
theorem readSk (t : Fin cfg1.N) (kk : Fin 1024) (q : Fin 256) :
    iblk1 V c 1 t (ix2 kk q) = arrS V c (ix2 (inBlock (t.val % 16) (pt_mod_lt t) kk) q) := by
  obtain ⟨-, -, e0, e1, -⟩ := idx_facts1 t
  show V c main_v0_1 (((cfg1.win 1).blk t).view.emb (ix2 kk q)) = V c main_v0_1 _
  refine congrArg (V c main_v0_1) (funext fun a => Fin.ext ?_)
  match a with
  | ⟨0, _⟩ => show win1_1.index t (0 : Fin 2) * 1024 + 1 * kk.val = t.val % 16 * 1024 + kk.val; rw [e0]; omega
  | ⟨1, _⟩ => show win1_1.index t (1 : Fin 2) * 256 + 1 * q.val = q.val; rw [e1]; omega

/-- The scaled features' block the accumulator starts from at point `t`: rows of row block `t / 16`. -/
theorem readSi (t : Fin cfg1.N) (p : Fin 1024) (q : Fin 256) :
    iblk1 V c 2 t (ix2 p q) = arrS V c (ix2 (inBlock (t.val / 16) (pt_div_lt t) p) q) := by
  obtain ⟨-, -, -, -, e0, e1, -⟩ := idx_facts1 t
  show V c main_v0_1 (((cfg1.win 2).blk t).view.emb (ix2 p q)) = V c main_v0_1 _
  refine congrArg (V c main_v0_1) (funext fun a => Fin.ext ?_)
  match a with
  | ⟨0, _⟩ => show win1_2.index t (0 : Fin 2) * 1024 + 1 * p.val = t.val / 16 * 1024 + p.val; rw [e0]; omega
  | ⟨1, _⟩ => show win1_2.index t (1 : Fin 2) * 256 + 1 * q.val = q.val; rw [e1]; omega

/-- The degree factors' block at point `t`: rows of row block `t / 16`. -/
theorem readD (t : Fin cfg1.N) (p : Fin 1024) (u : Fin 1) :
    iblk1 V c 3 t (ix2 p u) = arrD V c (ix2 (inBlock (t.val / 16) (pt_div_lt t) p) (0 : Fin 1)) := by
  obtain ⟨-, -, -, -, -, -, e0, e1, -⟩ := idx_facts1 t
  show V c main_v0_0 (((cfg1.win 3).blk t).view.emb (ix2 p u)) = V c main_v0_0 _
  refine congrArg (V c main_v0_0) (funext fun a => Fin.ext ?_)
  match a with
  | ⟨0, _⟩ => show win1_3.index t (0 : Fin 2) * 1024 + 1 * p.val = t.val / 16 * 1024 + p.val; rw [e0]; omega
  | ⟨1, _⟩ => show win1_3.index t (1 : Fin 2) * 1 + 1 * u.val = 0; rw [e1]; omega

/-- The weights' block at every point: the whole array. -/
theorem readW (t : Fin cfg1.N) (x y : Fin 256) : iblk1 V c 4 t (ix2 x y) = arrW V c (ix2 x y) := by
  obtain ⟨-, -, -, -, -, -, -, -, e0, e1, -⟩ := idx_facts1 t
  show V c main_arg2 (((cfg1.win 4).blk t).view.emb (ix2 x y)) = V c main_arg2 _
  refine congrArg (V c main_arg2) (funext fun a => Fin.ext ?_)
  match a with
  | ⟨0, _⟩ => show win1_4.index t (0 : Fin 2) * 256 + 1 * x.val = x.val; rw [e0]; omega
  | ⟨1, _⟩ => show win1_4.index t (1 : Fin 2) * 256 + 1 * y.val = y.val; rw [e1]; omega

/-! ## The accumulator in closed form -/

theorem inBlock_congr {n m : ℕ} (h : n = m) (hn : n < 16) (hm : m < 16) (x : Fin 1024) : inBlock n hn x = inBlock m hm x := by
  subst h; rfl

/-- A sum over sixteen blocks of 1024 columns each is the sum over the 16384 columns. -/
theorem sum_blocks (f : Fin 16384 → EReal) :
    ∑ s ∈ Finset.range 16, (if hs : s < 16 then ∑ kk : Fin 1024, f (inBlock s hs kk) else 0) = ∑ x : Fin 16384, f x := by
  rw [Finset.sum_range]
  have h1 : ∀ s : Fin 16, (if hs : s.val < 16 then ∑ kk : Fin 1024, f (inBlock s.val hs kk) else 0)
      = ∑ kk : Fin 1024, f (inBlock s.val s.isLt kk) := fun s => dif_pos s.isLt
  rw [Fintype.sum_congr _ _ h1, ← Fintype.sum_prod_type (f := fun x : Fin 16 × Fin 1024 => f (inBlock x.1.val x.1.isLt x.2))]
  refine Fintype.sum_equiv (finProdFinEquiv.trans (finCongr (by norm_num : 16 * 1024 = 16384))) _ _ fun x => ?_
  refine congrArg f (Fin.ext ?_)
  show x.1.val * 1024 + x.2.val = x.2.val + 1024 * x.1.val
  omega

/-- Row `p` of the row block of point `t`. -/
def rowAt (t : Fin cfg1.N) (p : Fin 1024) : Fin 16384 := inBlock (t.val / 16) (pt_div_lt t) p

/-- The product of row `r` of the adjacency, over the columns of column block `n`, with column `q` of the scaled features. -/
def blockTerm (r : Fin 16384) (q : Fin 256) (n : ℕ) : EReal :=
  if hn : n < 16 then ∑ kk : Fin 1024, arrA V c (ix2 r (inBlock n hn kk)) * arrS V c (ix2 (inBlock n hn kk) q) else 0

/-- One accumulation step at point `t`, at an entry. -/
theorem step_apply (t : Fin cfg1.N) (prev : FVec Ideal S1024x256 .f32) (p : Fin 1024) (q : Fin 256) :
    k1_pay2 (F := Ideal) (iblk1 V c 0 t) (iblk1 V c 1 t) prev (ix2 p q)
      = prev (ix2 p q) + blockTerm V c (rowAt t p) q (t.val % 16) := by
  refine (pay2_apply (iblk1 V c 0 t) (iblk1 V c 1 t) prev p q).trans ?_
  unfold blockTerm
  rw [dif_pos (pt_mod_lt t)]
  refine congrArg (fun x => prev (ix2 p q) + x) (Finset.sum_congr rfl fun kk _ => ?_)
  rw [readA V c t p kk, readSk V c t kk q]
  rfl

/-- The accumulator after the point of row block `i` and column block `k`, at (p, q): the scaled features' entry of row
    1024·i + p plus the products of that row of the adjacency with the scaled features over the column blocks up to `k`. -/
theorem acc_closed : ∀ (k : ℕ) (t : Fin cfg1.N), t.val % 16 = k → ∀ (p : Fin 1024) (q : Fin 256),
    accAt V c t.val t.isLt (ix2 p q)
      = arrS V c (ix2 (rowAt t p) q) + ∑ s ∈ Finset.range (k + 1), blockTerm V c (rowAt t p) q s
  | 0, t, hk, p, q => by
    refine (congrFun (accAt_first V c t hk) (ix2 p q)).trans ?_
    rw [pay1_eq]
    refine (step_apply V c t (iblk1 V c 2 t) p q).trans ?_
    rw [readSi V c t p q, Finset.sum_range_one, hk]
    rfl
  | k + 1, t, hk, p, q => by
    have hne : ¬ t.val % 16 = 0 := by omega
    have hlt : t.val - 1 < cfg1.N := Nat.lt_of_le_of_lt (Nat.sub_le _ _) t.isLt
    refine (congrFun (accAt_next V c t hne) (ix2 p q)).trans ?_
    refine (step_apply V c t (accAt V c (t.val - 1) hlt) p q).trans ?_
    have ih := acc_closed k ⟨t.val - 1, hlt⟩ (by show (t.val - 1) % 16 = k; omega) p q
    have hrow : rowAt ⟨t.val - 1, hlt⟩ p = rowAt t p :=
      inBlock_congr (by show (t.val - 1) / 16 = t.val / 16; omega) _ _ p
    rw [hrow] at ih
    rw [show accAt V c (t.val - 1) hlt (ix2 p q) = _ from ih, Finset.sum_range_succ _ (k + 1), hk, add_assoc]

/-- After the last column block: the whole row of the adjacency against the scaled features' column. -/
theorem acc_last (t : Fin cfg1.N) (h : t.val % 16 = 15) (p : Fin 1024) (q : Fin 256) :
    accAt V c t.val t.isLt (ix2 p q)
      = arrS V c (ix2 (rowAt t p) q) + ∑ x : Fin 16384, arrA V c (ix2 (rowAt t p) x) * arrS V c (ix2 x q) := by
  rw [acc_closed V c 15 t h p q]
  exact congrArg (fun x => arrS V c (ix2 (rowAt t p) q) + x)
    (sum_blocks fun x => arrA V c (ix2 (rowAt t p) x) * arrS V c (ix2 x q))

/-! ## The stored block at an entry -/

theorem aggOf_apply (D : FVec Ideal Cert.Spec.SD .f32) (S : FVec Ideal Cert.Spec.SX .f32) (A : FVec Ideal Cert.Spec.SA .f32)
    (r : Fin 16384) (q : Fin 256) :
    Cert.Spec.aggOf D S A (ix2 r q)
      = D (ix2 r (0 : Fin 1)) * (S (ix2 r q) + ∑ x : Fin 16384, A (ix2 r x) * S (ix2 x q)) := rfl

theorem lin_apply (Y : FVec Ideal Cert.Spec.SX .f32) (W : FVec Ideal Cert.Spec.SW .f32) (r : Fin 16384) (o : Fin 256) :
    Cert.Spec.lin Y W (ix2 r o) = max (∑ cc : Fin 256, Y (ix2 r cc) * W (ix2 cc o)) 0 := rfl

/-- What the output array ends holding: the tail of the features aggregated from the arrays the region reads. -/
abbrev aggTail : FVec Ideal Cert.Spec.SX .f32 :=
  Cert.Spec.tail (Cert.Spec.aggOf (arrD V c) (arrS V c) (arrA V c)) (arrW V c)

/-- The block stored at the last column block of a row block, at (p, q): the tail's entry of row 1024·i + p. -/
theorem out_apply (t : Fin cfg1.N) (h : t.val % 16 = 15) (p : Fin 1024) (q : Fin 256) :
    outAt V c t (ix2 p q) = aggTail V c (ix2 (rowAt t p) q) := by
  refine (pay3_apply (iblk1 V c 3 t) (accAt V c t.val t.isLt) (iblk1 V c 4 t) p q).trans ?_
  have hl : ∀ o : Fin 256, blockLin (iblk1 V c 3 t) (accAt V c t.val t.isLt) (iblk1 V c 4 t) (ix2 p o)
      = Cert.Spec.lin (Cert.Spec.aggOf (arrD V c) (arrS V c) (arrA V c)) (arrW V c) (ix2 (rowAt t p) o) := by
    intro o
    rw [blockLin_apply, lin_apply]
    refine congrArg (fun x => max x 0) (Finset.sum_congr rfl fun cc _ => ?_)
    rw [aggOf_apply, readD V c t p (0 : Fin 1), readW V c t cc o, acc_last V c t h p cc]
    rfl
  show _ = LibRowNorm.rowNorm (Ideal.ofBits .f32 Cert.Spec.floorW)
    (Cert.Spec.lin (Cert.Spec.aggOf (arrD V c) (arrS V c) (arrA V c)) (arrW V c)) (ix2 (rowAt t p) q)
  rw [LibRowNorm.rowNorm_apply, LibRowNorm.rowNorm_apply, hl q]
  exact congrArg (fun x => Ideal.div _ (max (Ideal.sqrt x) _)) (Finset.sum_congr rfl fun o _ => by rw [hl o])

/-! ## From the blocks to the array -/

/-- What the point of the last column block of a row block writes back is that row block of the tail. -/
theorem flushed_eq (t : Fin cfg1.N) (h : t.val % 16 = 15) :
    (dat1 V c).flushed 5 t = ((cfg1.win 5).blk t).view.read (Elt Ideal) (aggTail V c) := by
  show (cfg1.win 5).cut (grid1.coords t) ((dat1 V c).after 5 t) = _
  rw [after1_5]
  funext j
  obtain ⟨-, -, -, -, -, -, -, -, -, -, e0, e1⟩ := idx_facts1 t
  have hj : (cfg1.win 5).xinj (grid1.coords t) j
      = ix2 (n0 := 1024) (n1 := 256) ⟨(j 0).val, (j 0).isLt⟩ ⟨(j 1).val, (j 1).isLt⟩ :=
    funext fun a => match a with | ⟨0, _⟩ => rfl | ⟨1, _⟩ => rfl
  show outAt V c t ((cfg1.win 5).xinj (grid1.coords t) j) = aggTail V c (((cfg1.win 5).blk t).view.emb j)
  rw [hj, out_apply V c t h]
  refine congrArg (aggTail V c) (funext fun a => Fin.ext ?_)
  match a with
  | ⟨0, _⟩ => show t.val / 16 * 1024 + (j 0).val = win1_5.index t (0 : Fin 2) * 1024 + 1 * (j 0).val; rw [e0]; omega
  | ⟨1, _⟩ => show (j 1).val = win1_5.index t (1 : Fin 2) * 256 + 1 * (j 1).val; rw [e1]; omega

/-- An index of the output array is in point `t`'s block iff each coordinate is in the block's range on its axis. -/
theorem mem_blk5 (t : Fin cfg1.N) (i : S16384x256.Idx) :
    i ∈ ((cfg1.win 5).blk t).view.set ↔ ∀ a : Fin 2, win1_5.index t a * S1024x256.size a ≤ (i a).val
      ∧ (i a).val < win1_5.index t a * S1024x256.size a + S1024x256.size a := by
  show i ∈ ((View.whole main_v1).slice (win1_5.rect t)).set ↔ _
  rw [View.set_slice_whole, Rect.mem_set_unit]
  exact Iff.rfl

/-- Every row of the output is in the block written back at the last column block of its row block. -/
theorem cover5 (i : S16384x256.Idx) :
    ∃ t : Fin cfg1.N, (cfg1.win 5).flush t = true ∧ i ∈ ((cfg1.win 5).blk t).view.set := by
  have hi0 : (i 0).val < 16384 := (i 0).isLt
  have hi1 : (i 1).val < 256 := (i 1).isLt
  have hN : 16 * ((i 0).val / 1024) + 15 < cfg1.N := lt_of_lt_of_eq (by omega) N_1.symm
  obtain ⟨-, -, -, -, -, -, -, -, -, -, e0, e1⟩ := idx_facts1 ⟨16 * ((i 0).val / 1024) + 15, hN⟩
  have e0' : win1_5.index ⟨16 * ((i 0).val / 1024) + 15, hN⟩ (0 : Fin 2) = (16 * ((i 0).val / 1024) + 15) / 16 := e0
  refine ⟨⟨16 * ((i 0).val / 1024) + 15, hN⟩,
    (flush1_5 _).mpr (by show (16 * ((i 0).val / 1024) + 15) % 16 = 15; omega), ?_⟩
  rw [mem_blk5]
  intro a
  match a with
  | ⟨0, _⟩ =>
    show win1_5.index ⟨16 * ((i 0).val / 1024) + 15, hN⟩ (0 : Fin 2) * 1024 ≤ (i 0).val
      ∧ (i 0).val < win1_5.index ⟨16 * ((i 0).val / 1024) + 15, hN⟩ (0 : Fin 2) * 1024 + 1024
    rw [e0']; omega
  | ⟨1, _⟩ =>
    show win1_5.index ⟨16 * ((i 0).val / 1024) + 15, hN⟩ (1 : Fin 2) * 256 ≤ (i 1).val
      ∧ (i 1).val < win1_5.index ⟨16 * ((i 0).val / 1024) + 15, hN⟩ (1 : Fin 2) * 256 + 256
    rw [e1]; omega

/-- The output array after the second pallas_call: the tail of the aggregated features, everywhere. -/
theorem final1 : ((dat1 V c).arrAt 5 cfg1.N : Cert.Spec.SX.Idx → EReal)
    = Cert.Spec.tail (Cert.Spec.aggOf (V c main_v0_0) (V c main_v0_1) (V c main_arg1)) (V c main_arg2) :=
  (dat1 V c).arrAt_eq_of_cover 5 (aggTail V c) (fun t hf => flushed_eq V c t ((flush1_5 t).mp hf)) cover5

end Cert.KernelIdeal.Hand

end
-- ==== Proof.KernelValue.lean ====
/-
  The kernel program's result as a function of its three inputs, on the extended reals: the run's result array — what
  the second pallas_call's pipeline leaves, from entry contents that hold what the first call's pipeline leaves — is the
  tail (weights, clamp, row normalisation) of the kernel's aggregated features.
-/
import proofs.«121199_j53403623358621_1_alg».proof.Proof.KernelRun
import proofs.«121199_j53403623358621_1_alg».proof.Proof.KernelValue0
import proofs.«121199_j53403623358621_1_alg».proof.Proof.KernelValue1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The features, the adjacency and the weights the program is launched on, on core `c`. -/
abbrev inX (c : Dev nD) : Cert.Spec.SX.Idx → EReal := m ((c.tc : Thread nD τ).loc main_arg0)
abbrev inA (c : Dev nD) : Cert.Spec.SA.Idx → EReal := m ((c.tc : Thread nD τ).loc main_arg1)
abbrev inW (c : Dev nD) : Cert.Spec.SW.Idx → EReal := m ((c.tc : Thread nD τ).loc main_arg2)

/-- The second call finds the degree-factor column the first call wrote … -/
theorem entry_deg (c : Dev nD) : (Ve1 m c main_v0_0 : Cert.Spec.SD.Idx → EReal) = Cert.Spec.dinvCol (inA m c) :=
  (Wa_v0_0 m c).trans (final0_deg (Ve0 m) c)

/-- … the scaled features it wrote … -/
theorem entry_scaled (c : Dev nD) : (Ve1 m c main_v0_1 : Cert.Spec.SX.Idx → EReal) = Cert.Spec.scaled (inX m c) (inA m c) :=
  (Wa_v0_1 m c).trans (final0_scaled (Ve0 m) c)

/-- … and the adjacency and the weights as launched. -/
theorem entry_adj (c : Dev nD) : (Ve1 m c main_arg1 : Cert.Spec.SA.Idx → EReal) = inA m c :=
  Wa_of m c main_arg1 (by decide) (by decide)
theorem entry_weights (c : Dev nD) : (Ve1 m c main_arg2 : Cert.Spec.SW.Idx → EReal) = inW m c :=
  Wa_of m c main_arg2 (by decide) (by decide)

/-- So what its pipeline leaves in the result array is the specification's kernel arrangement. -/
theorem result_eq (c : Dev nD) :
    ((dat1 (F := Ideal) (Ve1 m) c).arrAt 5 cfg1.N : Cert.Spec.SX.Idx → EReal)
      = Cert.Spec.tail (Cert.Spec.aggK (inX m c) (inA m c)) (inW m c) := by
  rw [final1 (Ve1 m) c, entry_deg m c, entry_scaled m c, entry_adj m c, entry_weights m c]
  simp only [Cert.Spec.aggK]

/-- The kernel program runs to the end and its result array holds the tail of the kernel's aggregated features; its
    arguments end as launched. -/
theorem run_spec : θ_run (defs (F := Ideal)) (onTc (τ := τ) (main (F := Ideal))) ⟨m, fun _ => 0, ρ⟩ (fun r => ∀ c : Dev nD,
      r.2.mem ((c.tc : Thread nD τ).loc main_v1) = Cert.Spec.tail (Cert.Spec.aggK (inX m c) (inA m c)) (inW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m c), (h c).2⟩) (run_value m ρ)

end Cert.KernelIdeal.Hand

end
-- ==== Proof.RefValue.lean ====
/-
  The reference program's result is the specification.

  The reference forms the adjacency with self loops A(i, k) + [i = k] (the identity matrix as the conversion of the
  comparison of the two coordinate arrays), its row sums, r(i) = 1 / sqrt(row sum), the normalised matrix
  (r(i) · (A(i, k) + [i = k])) · r(k), multiplies it with the features X, then with the weights W, clamps at zero and divides
  each row by its Euclidean length floored at a constant. Read on the extended reals, operation by operation at an index,
  each of these is the specification's function of the same name:
    the identity matrix's entry                               (`eye_apply`),
    the matrix with self loops                                 (`loops_apply`),
    the degree                                                 (`deg_apply`),
    the degree factor                                          (`dinv_apply`),
    the normalised matrix                                      (`normalised_apply`),
    the aggregated features                                    (`agg_apply`),
    the linear layer clamped at zero                           (`lin_eq`),
  and the last six operations are the row normalisation of the clamped linear layer (`tail_eq`); together `ref_eq`.
-/
import proofs.«121199_j53403623358621_1_alg».proof.Proof.Gen.ReferenceIdeal.Read
import proofs.«121199_j53403623358621_1_alg».proof.Proof.Spec
import proofs.«121199_j53403623358621_1_alg».proof.Proof.LibRowNorm
import Idealize.ShloMosaic.Lib.ValueIdx
import Idealize.ShloMosaic.Lib.Pipeline.Value
import Idealize.ShloMosaic.Lib.IdealHost
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
  Idealize.ShloMosaic.StableHlo

/-! ## The operations' index maps, by coordinates -/

theorem idx_rowsum (p k : Fin 16384) : idx_main_v7 (ix1 p) k = ix2 p k :=
  funext fun a => Fin.ext (by match a with | ⟨0, _⟩ => rfl | ⟨1, _⟩ => rfl)

theorem idx_rowfactor (p k : Fin 16384) : idx_main_v11 (idx_main_v12 (ix2 p k)) = ix1 p :=
  funext fun a => Fin.ext (by match a with | ⟨0, _⟩ => rfl)

theorem idx_colfactor (p k : Fin 16384) : idx_main_v14 (idx_main_v15 (ix2 p k)) = ix1 k :=
  funext fun a => Fin.ext (by match a with | ⟨0, _⟩ => rfl)

theorem lidx_agg (p : Fin 16384) (c : Fin 256) (k : Fin 16384) : lidx_main_v17 (ix2 p c) k = ix2 p k :=
  funext fun a => Fin.ext (by match a with | ⟨0, _⟩ => rfl | ⟨1, _⟩ => rfl)

theorem ridx_agg (p : Fin 16384) (c : Fin 256) (k : Fin 16384) : ridx_main_v17 (ix2 p c) k = ix2 k c :=
  funext fun a => Fin.ext (by match a with | ⟨0, _⟩ => rfl | ⟨1, _⟩ => rfl)

theorem lidx_lin (p : Fin 16384) (q : Fin 256) (c : Fin 256) : lidx_main_v18 (ix2 p q) c = ix2 p c :=
  funext fun a => Fin.ext (by match a with | ⟨0, _⟩ => rfl | ⟨1, _⟩ => rfl)

theorem ridx_lin (p : Fin 16384) (q : Fin 256) (c : Fin 256) : ridx_main_v18 (ix2 p q) c = ix2 c q :=
  funext fun a => Fin.ext (by match a with | ⟨0, _⟩ => rfl | ⟨1, _⟩ => rfl)

/-! ## The identity matrix -/

/-- Two row numbers below 16384 have the same 32-bit word only if they are the same number. -/
theorem word_inj (i k : Fin 16384) (e : BitVec.ofNat 32 i.val = BitVec.ofNat 32 k.val) : i = k := by
  have h := congrArg BitVec.toNat e
  rw [BitVec.toNat_ofNat, BitVec.toNat_ofNat] at h
  have hb : (16384 : ℕ) < 2 ^ 32 := by norm_num
  rw [Nat.mod_eq_of_lt (lt_trans i.isLt hb), Nat.mod_eq_of_lt (lt_trans k.isLt hb)] at h
  exact Fin.ext h

/-- The comparison of the row coordinate (plus the zero word) with the column coordinate, converted: 1 on the diagonal,
    0 off it. -/
theorem eye_apply (i k : Fin 16384) : val_main_v5 (F := Ideal) (ix2 i k) = Spec.eye i k := by
  rw [val_main_v5_apply, val_main_v4_apply, val_main_v3_apply, val_main_v0_apply, val_main_v1_apply, val_main_v2_apply,
    val_main_c_apply]
  show (((BitVec.ofBool (BitVec.ofNat 32 i.val + 0#32 == BitVec.ofNat 32 k.val)).toNat : ℝ) : EReal) = Spec.eye i k
  unfold Spec.eye
  rw [BitVec.add_zero]
  by_cases h : i = k
  · subst h; simp
  · have hne : ¬ BitVec.ofNat 32 i.val = BitVec.ofNat 32 k.val := fun e => h (word_inj i k e)
    simp [h, hne]

/-- The adjacency with self loops. -/
theorem loops_apply (A : FVec Ideal S16384x16384 .f32) (i k : Fin 16384) :
    val_main_v6 (F := Ideal) A (ix2 i k) = A (ix2 i k) + Spec.eye i k := by
  rw [val_main_v6_apply, eye_apply]; rfl

/-- The row sums of the adjacency with self loops: the reference's degrees. -/
theorem deg_apply (A : FVec Ideal S16384x16384 .f32) (i : Fin 16384) :
    val_main_v7 (F := Ideal) A (ix1 i) = Spec.degR A i := by
  rw [val_main_v7_apply, val_main_cst_apply, Ideal.ofBits_def, Ideal.ofBits_zero_f32, zero_add]
  unfold Spec.degR
  exact Finset.sum_congr rfl fun k _ => by rw [idx_rowsum, loops_apply]

/-- One over the square root of the degree. -/
theorem dinv_apply (A : FVec Ideal S16384x16384 .f32) (i : Fin 16384) :
    val_main_v10 (F := Ideal) A (ix1 i) = Spec.dinvR A i := by
  rw [val_main_v10_apply, val_main_v9_apply, val_main_cst_0_apply, val_main_v8_apply, deg_apply, Ideal.ofBits_def,
    Ideal.ofBits_one_f32, Ideal.hostDivf_def, Ideal.hostUnary_sqrt_def]
  unfold Spec.dinvR
  exact Eq.refl _

/-- The normalised matrix: the row's factor times the entry with self loops, times the column's factor. -/
theorem normalised_apply (A : FVec Ideal S16384x16384 .f32) (i k : Fin 16384) :
    val_main_v16 (F := Ideal) A (ix2 i k)
      = (Spec.dinvR A i * (A (ix2 i k) + Spec.eye i k)) * Spec.dinvR A k := by
  rw [val_main_v16_apply, val_main_v13_apply, val_main_v12_apply, val_main_v11_apply, idx_rowfactor, dinv_apply,
    val_main_v15_apply, val_main_v14_apply, idx_colfactor, dinv_apply, loops_apply]
  rfl

/-- The normalised matrix times the features: the reference's aggregated features. -/
theorem agg_apply (X : FVec Ideal S16384x256 .f32) (A : FVec Ideal S16384x16384 .f32) (p : Fin 16384) (c : Fin 256) :
    val_main_v17 (F := Ideal) X A (ix2 p c) = Spec.aggR X A (ix2 p c) := by
  rw [val_main_v17_apply]
  unfold Spec.aggR
  exact Finset.sum_congr rfl fun k _ => by rw [lidx_agg, ridx_agg, normalised_apply]

/-- The aggregated features times the weights, clamped at zero. -/
theorem lin_eq (X : FVec Ideal S16384x256 .f32) (A : FVec Ideal S16384x16384 .f32) (W : FVec Ideal S256x256 .f32) :
    val_main_v19 (F := Ideal) X A W = Spec.lin (Spec.aggR X A) W := by
  funext i
  obtain ⟨p, q, rfl⟩ : ∃ (p : Fin 16384) (q : Fin 256), i = ix2 p q := ⟨i 0, i 1, eq_ix2 i⟩
  rw [val_main_v19_apply, val_main_call0_v0_apply, val_main_call0_cst_apply, Ideal.ofBits_def, Ideal.ofBits_zero_f32,
    val_main_v18_apply]
  unfold Spec.lin
  show max (∑ c : Fin 256, val_main_v17 (F := Ideal) X A (lidx_main_v18 (ix2 p q) c) * W (ridx_main_v18 (ix2 p q) c)) 0
    = max (∑ c : Fin 256, Spec.aggR X A (ix2 p c) * W (ix2 c q)) 0
  exact congrArg (fun s => max s 0) (Finset.sum_congr rfl fun c _ => by rw [lidx_lin, ridx_lin, agg_apply])

/-! ## The last six operations -/

/-- The squares reduced along the rows, the sums a column, the root, the maximum with the floor, the column copied across
    the rows and the quotient: the clamped linear layer with each row divided by its floored length. -/
theorem tail_eq (X : FVec Ideal S16384x256 .f32) (A : FVec Ideal S16384x16384 .f32) (W : FVec Ideal S256x256 .f32) :
    val_main_v24 (F := Ideal) X A W
      = LibRowNorm.rowNorm (Ideal.ofBits .f32 0x2B8CBCCC#32) (val_main_v19 (F := Ideal) X A W) := by
  unfold val_main_v24 val_main_v23 val_main_v22 val_main_v21 val_main_cst_1 val_main_v20 val_main_call1_v2
    val_main_call1_v1 val_main_call1_cst val_main_call1_v0
  exact LibRowNorm.host_eq (M := 16384) (N := 256) (val_main_v19 (F := Ideal) X A W) 0x2B8CBCCC#32
    reducesTo_S16384x256_S16384_d1 (by decide) h_S_ bcast_S16384_S16384x1_0 bcast_S_S16384x1
    bcast_S16384x1_S16384x256_0_1

/-- The reference program's result is the specification's tail of the reference's aggregated features. -/
theorem ref_eq (x0 : FVec Ideal Cert.ReferenceIdeal.S16384x256 .f32) (x1 : FVec Ideal Cert.ReferenceIdeal.S16384x16384 .f32)
    (x2 : FVec Ideal Cert.ReferenceIdeal.S256x256 .f32) :
    Cert.ReferenceIdeal.Read.val_main_v24 (F := Ideal) x0 x1 x2 = Cert.Spec.tail (Cert.Spec.aggR x0 x1) x2 := by
  rw [tail_eq, lin_eq]
  rfl

end Cert.RefValue

end
-- ==== Proof.Algebra.lean ====
/-
  The two arrangements of the aggregation agree on real inputs whose degrees are positive.

  With real matrices a (the adjacency) and x (the features), d(i) = Σ_j a(i, j) + 1 is the degree either way (the identity's
  row sums to one), both degree factors are s(i) = (√d(i))⁻¹ when d(i) > 0, and

    s(i) · (s(i) · x(i, c) + Σ_k a(i, k) · (s(k) · x(k, c))) = Σ_k ((s(i) · (a(i, k) + [i = k])) · s(k)) · x(k, c)

  holds in the reals by distributing and splitting off the diagonal term. The coercion of the reals into the extended reals
  respects sums and products, which carries the identity over.
-/
import Mathlib.Data.EReal.Inv
import Mathlib.Analysis.Real.Sqrt
import Mathlib.Algebra.BigOperators.Group.Finset.Basic
import Mathlib.Algebra.BigOperators.Group.Finset.Piecewise
import Mathlib.Algebra.BigOperators.Ring.Finset
import Mathlib.Tactic.Ring
import Idealize.ShloMosaic.PureOps.Ideal.Laws
import Idealize.ShloMosaic.Lib.ValueIdx
import Idealize.ShloMosaic.Lib.IdealHost
import proofs.«121199_j53403623358621_1_alg».proof.Proof.Spec

noncomputable section

namespace Cert.Algebra

open Idealize.ShloMosaic Idealize.ShloMosaic.ValueIdx

/-! ## The coercion of the reals respects finite sums -/

theorem coe_sum {ι : Type*} (t : Finset ι) (f : ι → ℝ) :
    ((∑ k ∈ t, f k : ℝ) : EReal) = ∑ k ∈ t, (f k : EReal) := by
  classical
  induction t using Finset.induction_on with
  | empty => simp
  | insert k t hk ih => rw [Finset.sum_insert hk, Finset.sum_insert hk, EReal.coe_add, ih]

theorem coe_ite (p : Prop) [Decidable p] :
    (if p then (1 : EReal) else 0) = (((if p then (1 : ℝ) else 0) : ℝ) : EReal) := by
  split_ifs <;> simp

/-! ## The identity in the reals, over any finite index set -/

theorem agg_real {ι : Type*} [Fintype ι] [DecidableEq ι] (a : ι → ι → ℝ) (s x : ι → ℝ) (i : ι) :
    s i * (s i * x i + ∑ k, a i k * (s k * x k))
      = ∑ k, ((s i * (a i k + if i = k then 1 else 0)) * s k) * x k := by
  have h : ∀ k, ((s i * (a i k + if i = k then 1 else 0)) * s k) * x k
      = s i * (a i k * (s k * x k)) + (if i = k then s i * (s k * x k) else 0) := by
    intro k
    split_ifs <;> ring
  simp only [h, Finset.sum_add_distrib, Finset.sum_ite_eq, Finset.mem_univ, if_true, ← Finset.mul_sum]
  ring

/-- The same identity between extended reals that are real. -/
theorem agg_ereal {ι : Type*} [Fintype ι] [DecidableEq ι] (a : ι → ι → ℝ) (s x : ι → ℝ) (i : ι) :
    (s i : EReal) * ((s i : EReal) * (x i : EReal) + ∑ k, (a i k : EReal) * ((s k : EReal) * (x k : EReal)))
      = ∑ k, (((s i : EReal) * ((a i k : EReal) + if i = k then (1 : EReal) else 0)) * (s k : EReal)) * (x k : EReal) := by
  simp only [coe_ite, ← EReal.coe_mul, ← EReal.coe_add, ← coe_sum]
  rw [EReal.coe_eq_coe_iff]
  exact agg_real a s x i

/-! ## The two arrangements -/

theorem agg_eq (X : FVec Ideal Cert.Spec.SX .f32) (A : FVec Ideal Cert.Spec.SA .f32)
    (hX : ∀ j, ∃ r : ℝ, X j = (r : EReal)) (hA : ∀ j, ∃ r : ℝ, A j = (r : EReal))
    (hdeg : ∀ i : Fin 16384, 0 < Cert.Spec.degK A i) :
    Cert.Spec.aggK X A = Cert.Spec.aggR X A := by
  choose a ha using hA
  choose x hx using hX
  -- the degree, a real
  obtain ⟨d, hd⟩ : ∃ d : Fin 16384 → ℝ, ∀ i, d i = ∑ j : Fin 16384, a (ix2 i j) + 1 := ⟨_, fun _ => rfl⟩
  have hdK : ∀ i, Cert.Spec.degK A i = ((d i : ℝ) : EReal) := by
    intro i
    unfold Cert.Spec.degK
    simp only [ha]
    rw [hd i, EReal.coe_add, coe_sum, EReal.coe_one]
  have hdR : ∀ i, Cert.Spec.degR A i = ((d i : ℝ) : EReal) := by
    intro i
    unfold Cert.Spec.degR Cert.Spec.eye
    simp only [ha, Finset.sum_add_distrib, Finset.sum_ite_eq, Finset.mem_univ, if_true]
    rw [hd i, EReal.coe_add, coe_sum, EReal.coe_one]
  have hpos : ∀ i, 0 < d i := by
    intro i
    have h := hdeg i
    rw [hdK i] at h
    exact_mod_cast h
  -- the degree factor, the same real either way
  obtain ⟨s, hs⟩ : ∃ s : Fin 16384 → ℝ, ∀ i, s i = (Real.sqrt (d i))⁻¹ := ⟨_, fun _ => rfl⟩
  have hK : ∀ i, Cert.Spec.dinvK A i = ((s i : ℝ) : EReal) := by
    intro i
    unfold Cert.Spec.dinvK
    rw [hdK i, Ideal.rsqrt_coe, if_neg (not_lt.mpr (hpos i).le), if_neg (hpos i).ne', hs i]
  have hR : ∀ i, Cert.Spec.dinvR A i = ((s i : ℝ) : EReal) := by
    intro i
    have hne : Real.sqrt (d i) ≠ 0 := (Real.sqrt_pos.mpr (hpos i)).ne'
    unfold Cert.Spec.dinvR
    rw [hdR i, Ideal.sqrt_coe, if_neg (not_lt.mpr (hpos i).le), Ideal.div_coe hne, one_mul, one_div, hs i]
  funext j
  obtain ⟨i, c, rfl⟩ : ∃ i c, j = ix2 i c := ⟨j 0, j 1, eq_ix2 j⟩
  show Cert.Spec.dinvK A i * (Cert.Spec.dinvK A i * X (ix2 i c)
        + ∑ k : Fin 16384, A (ix2 i k) * (Cert.Spec.dinvK A k * X (ix2 k c)))
      = ∑ k : Fin 16384, ((Cert.Spec.dinvR A i * (A (ix2 i k) + Cert.Spec.eye i k)) * Cert.Spec.dinvR A k) * X (ix2 k c)
  simp only [hK, hR, ha, hx, Cert.Spec.eye]
  exact agg_ereal (fun p q => a (ix2 p q)) s (fun k => x (ix2 k c)) i

/-! ## The two constant words -/

theorem ofBits_one : Ideal.ofBits .f32 0x3F800000#32 = (1 : EReal) := Ideal.ofBits_one_f32

theorem ofBits_zero : Ideal.ofBits .f32 0x00000000#32 = (0 : EReal) := Ideal.ofBits_zero_f32

end Cert.Algebra

end
-- ==== Proof.PreFacts.lean ====
/-
  The printed precondition, read at the ideal values. It is the conjunction of four tests: every entry of the features
  X, of the adjacency A and of the weights W has absolute value below +∞, and every row sum of A plus one is above zero.
  From the claim that the conjunction is 1 this module reads off what the comparison of the two programs uses: every
  entry of X and of A is a real number, and every row's degree — the row sum plus one — is positive.

  An absolute value max(x, −x) below +∞ excludes both infinities, so x is a real. The row sum is the host's reduction
  along axis 1 from the zero word: at row i it is 0 + Σ_k A(i, k); the word 0x3F800000 is 1; "greater than" at the
  extended reals is the strict order.
-/
import proofs.«121199_j53403623358621_1_alg».proof.Pre_finite_inputs
import proofs.«121199_j53403623358621_1_alg».proof.Proof.Gen.Pre_finite_inputs
import proofs.«121199_j53403623358621_1_alg».proof.Proof.Spec
import Idealize.ShloMosaic.Lib.ReduceAll
import Idealize.ShloMosaic.Lib.StableHlo.Predicate
import Idealize.ShloMosaic.Lib.IdealHost
import Idealize.ShloMosaic.PureOps.Ideal.Laws
import Idealize.ShloMosaic.Lib.ValueIdx

noncomputable section

namespace Cert.PreFacts

open Idealize.ShloMosaic Idealize.ShloMosaic.ValueIdx

/-- The shape of a scalar has one index. -/
instance : Subsingleton Cert.Pre_finite_inputs.S_.Idx := ⟨fun a b => funext fun d => d.elim0⟩

/-- The word of +∞ is the top of the extended reals. -/
theorem ofBits_inf_f32 : Ideal.ofBits .f32 0x7F800000#32 = ⊤ := by simp [Ideal.ofBits, Ideal.ieee]

/-- A comparison "less than" that came out 1 is the strict order. -/
theorem cmp_olt_eq_one (x y : EReal) : Ideal.cmp .olt x y = 1#1 ↔ x < y := by
  unfold Ideal.cmp
  rw [StableHlo.Predicate.ofBool_eq_one_iff, decide_eq_true_eq]

/-- A comparison "greater than" that came out 1 is the strict order, turned around. -/
theorem cmp_ogt_eq_one (x y : EReal) : Ideal.cmp .ogt x y = 1#1 ↔ y < x := by
  unfold Ideal.cmp
  rw [StableHlo.Predicate.ofBool_eq_one_iff, decide_eq_true_eq]

/-- An extended real whose absolute value max(x, −x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the test |x| < +∞ on an array of any shape: where it is 1 the entry is a real number. -/
theorem real_of_test {s : Shape} (x : FVec Ideal s .f32) (hb : (⟨0, ![]⟩ : Shape).BroadcastsInDim s ![]) (j : s.Idx)
    (h : cmpf .olt (Host.absf x) (broadcastInDim s ![] hb (constant (F := Ideal) (⟨0, ![]⟩ : Shape) .f32 0x7F800000#32)) j = 1#1) :
    ∃ r : ℝ, x j = (r : EReal) := by
  rw [cmpf_apply, broadcastInDim_scalar_apply, constant_apply, ofBits_inf_f32] at h
  exact real_of_abs_lt_top (x j) ((cmp_olt_eq_one _ _).1 h)

/-- One element of the test "row sum plus one above zero": where it is 1 the row's sum plus one is positive. -/
theorem row_pos_of_test {M N : ℕ} (A : FVec Ideal ⟨2, ![M, N]⟩ .f32)
    (hrt : (⟨2, ![M, N]⟩ : Shape).ReducesTo [(1 : Fin 2)] ⟨1, ![M]⟩)
    (hr : (⟨2, ![M, N]⟩ : Shape).Reduces [(1 : Fin 2)] ⟨1, ![M]⟩) (hu : 0 < (⟨0, ![]⟩ : Shape).numel)
    (hb : (⟨0, ![]⟩ : Shape).BroadcastsInDim ⟨1, ![M]⟩ ![]) (p : Fin M)
    (h : cmpf .ogt
        (addf (Host.reduceAdd A (constant (F := Ideal) (⟨0, ![]⟩ : Shape) .f32 0x00000000#32) hrt hu)
          (broadcastInDim ⟨1, ![M]⟩ ![] hb (constant (F := Ideal) (⟨0, ![]⟩ : Shape) .f32 0x3F800000#32)))
        (broadcastInDim ⟨1, ![M]⟩ ![] hb (constant (F := Ideal) (⟨0, ![]⟩ : Shape) .f32 0x00000000#32)) (ix1 p) = 1#1) :
    0 < (∑ k : Fin N, A (ix2 p k)) + 1 := by
  rw [cmpf_apply, addf_apply, broadcastInDim_scalar_apply, broadcastInDim_scalar_apply, constant_apply, constant_apply,
    hostReduceAdd_apply, Ideal.hostReduceAdd_single hrt hr, constant_apply, Ideal.ofBits_zero_f32, zero_add,
    Ideal.ofBits_one_f32] at h
  have hs : (∑ k : Fin ((⟨2, ![M, N]⟩ : Shape).size 1), A (hr.lift (ix1 p) k)) = ∑ k : Fin N, A (ix2 p k) :=
    Finset.sum_congr rfl fun k _ => by rw [LibRowNorm.lift_row hr p k]
  rw [hs] at h
  exact (cmp_ogt_eq_one _ _).1 h

/-- The precondition decoded: every entry of X and of A is a real number, every row's degree is positive, and every
    entry of W is a real number. -/
theorem decode [hF : Cert.Pre_finite_inputs.Facts] (X : FVec Ideal Cert.Pre_finite_inputs.S16384x256 .f32)
    (A : FVec Ideal Cert.Pre_finite_inputs.S16384x16384 .f32) (W : FVec Ideal Cert.Pre_finite_inputs.S256x256 .f32)
    (h : Cert.Pre_finite_inputs.fn (F := Ideal) X A W = fun _ => 1#1) :
    (∀ j, ∃ r : ℝ, X j = (r : EReal)) ∧ (∀ j, ∃ r : ℝ, A j = (r : EReal)) ∧ (∀ i : Fin 16384, 0 < Cert.Spec.degK A i)
      ∧ (∀ j, ∃ r : ℝ, W j = (r : EReal)) := by
  have e := congrFun h ValueIdx.ix0
  dsimp only [Cert.Pre_finite_inputs.fn, Cert.Pre_finite_inputs.fn_part1] at e
  change IntOp.andi (IntOp.andi (IntOp.andi _ _) _) _ = 1#1 at e
  obtain ⟨h123, h4⟩ := IntOp.andi_eq_one.1 e
  obtain ⟨h12, h3⟩ := IntOp.andi_eq_one.1 h123
  obtain ⟨h1, h2⟩ := IntOp.andi_eq_one.1 h12
  refine ⟨fun j => ?_, fun j => ?_, fun i => ?_, fun j => ?_⟩
  · exact real_of_test X _ j (Host.reduce_andi_all _ _ _ _ _ h1 j)
  · exact real_of_test A _ j (Host.reduce_andi_all _ _ _ _ _ h2 j)
  · exact row_pos_of_test A _ (by decide) _ _ i (Host.reduce_andi_all _ _ _ _ _ h4 (ix1 i))
  · exact real_of_test W _ j (Host.reduce_andi_all _ _ _ _ _ h3 j)

end Cert.PreFacts

end
-- ==== Proof.lean ====
/-
  The certificate of a graph-convolution layer: a Pallas kernel program against its jnp reference, over the extended reals.

  Both programs take features X (16384 × 256), an adjacency A (16384 × 16384) and weights W (256 × 256), normalise the
  adjacency with self loops by the inverse square roots of its row sums d(i) = Σ_j A(i, j) + 1, aggregate the features
  with it, apply the weights, clamp at zero and divide each row by its Euclidean length floored at a small constant.
  The kernel program does it in two pallas_calls: the first writes the factors s(i) = rsqrt(d(i)) and the scaled rows
  S(i, ·) = s(i) · X(i, ·); the second accumulates S(i, ·) + Σ_k A(i, k) · S(k, ·) over sixteen column blocks, scales the
  rows by s(i) again and applies the tail. The reference forms the normalised matrix (r(i) · (A(i, k) + [i = k])) · r(k),
  r(i) = 1 / sqrt(d(i)), and multiplies. Where every entry is finite and every d(i) is positive — the precondition: below
  zero the reference's own square root is undefined, and at zero its quotient — s and r are one real number and the two
  aggregations are equal by distributing the product over the finite sum.

  The three programs run to the end, nothing faulting, their arguments unchanged: the kernel program's two pallas_calls as
  two regions of its run (at the word level and at the ideal instance alike), the reference as its host operations in
  order. The ideal pass rewrote nothing, so the idealized kernel is the kernel's own text read at the ideal instance.
-/
import proofs.«121199_j53403623358621_1_alg».proof.Defs
import proofs.«121199_j53403623358621_1_alg».proof.Proof.Gen.Kernel
import proofs.«121199_j53403623358621_1_alg».proof.Proof.Gen.KernelIdeal
import proofs.«121199_j53403623358621_1_alg».proof.Proof.Gen.ReferenceIdeal
import proofs.«121199_j53403623358621_1_alg».proof.Proof.Gen.Pre_finite_inputs
import proofs.«121199_j53403623358621_1_alg».proof.Proof.Gen.ReferenceIdeal.Read
import proofs.«121199_j53403623358621_1_alg».proof.Proof.BitsKernelRun
import proofs.«121199_j53403623358621_1_alg».proof.Proof.KernelValue
import proofs.«121199_j53403623358621_1_alg».proof.Proof.RefValue
import proofs.«121199_j53403623358621_1_alg».proof.Proof.Algebra
import proofs.«121199_j53403623358621_1_alg».proof.Proof.PreFacts

noncomputable section

namespace Cert.Proof

open Idealize.ShloMosaic Idealize.SL.Sem

/-- The word-level kernel program runs and leaves its arguments as launched. -/
theorem frame_kernel : Cert.frame_Kernel := fun m ρ _ => Cert.Kernel.Hand.frame (F := Bits) m ρ

/-- So does the idealized one. -/
theorem frame_kernelIdeal : Cert.frame_KernelIdeal := fun m ρ _ => Cert.KernelIdeal.Hand.frame (F := Ideal) m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three inputs, under the precondition, both idealized programs end with the same result:
    the tail of the aggregated features, the two aggregations being equal where the inputs are finite and the degrees
    positive. -/
theorem algebraic : Cert.algebraic_KernelIdeal_ReferenceIdeal := by
  intro m ρ m' ρ' hpre hagree
  refine ⟨_, Cert.KernelIdeal.Hand.run_spec m ρ, ?_⟩
  refine (θ_run Cert.ReferenceIdeal.defs _ _).mono (fun _ h c => ⟨(h c).1.trans ?_, (h c).2⟩)
    (Cert.ReferenceIdeal.Value.run (F := Ideal) m' ρ')
  obtain ⟨hX, hA, hdeg, -⟩ := Cert.PreFacts.decode _ _ _ (hpre c)
  rw [Cert.ReferenceIdeal.Read.val_main_v24_eq, Cert.RefValue.ref_eq, (hagree c).1, (hagree c).2.1, (hagree c).2.2]
  exact congrArg (fun Y => Cert.Spec.tail Y _) (Cert.Algebra.agg_eq _ _ hX hA hdeg).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
